-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v48_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x64 .f32) (main_arg3 : FVec F S64 .f32) (main_arg4 : FVec F S64x16 .f32) (main_arg5 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S1376 : Shape := ⟨1, ![1376]⟩
abbrev S3301376 : Shape := ⟨1, ![3301376]⟩
abbrev S3301376x1 : Shape := ⟨2, ![3301376, 1]⟩
abbrev S3301376x64 : Shape := ⟨2, ![3301376, 64]⟩
abbrev S8192x64 : Shape := ⟨2, ![8192, 64]⟩
abbrev S8192x1 : Shape := ⟨2, ![8192, 1]⟩
abbrev S1x64 : Shape := ⟨2, ![1, 64]⟩
abbrev S1x16 : Shape := ⟨2, ![1, 16]⟩
abbrev S100000x16 : Shape := ⟨2, ![100000, 16]⟩
abbrev S10000x16 : Shape := ⟨2, ![10000, 16]⟩

abbrev nBuf : Space → Nat
  | .hbm => 68
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3300000, .i32⟩
  | .hbm, ⟨22, _⟩ => ⟨S3300000, .i1⟩
  | .hbm, ⟨23, _⟩ => ⟨S_, .i32⟩
  | .hbm, ⟨24, _⟩ => ⟨S3300000, .i32⟩
  | .hbm, ⟨25, _⟩ => ⟨S3300000, .i32⟩
  | .hbm, ⟨26, _⟩ => ⟨S3300000, .i32⟩
  | .hbm, ⟨27, _⟩ => ⟨S3300000x1, .i32⟩
  | .hbm, ⟨28, _⟩ => ⟨S3300000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S100000x64, .f32⟩
  | .hbm, ⟨40, _⟩ => ⟨S_, .i32⟩
  | .hbm, ⟨41, _⟩ => ⟨S1376, .i32⟩
  | .hbm, ⟨42, _⟩ => ⟨S3301376, .i32⟩
  | .hbm, ⟨43, _⟩ => ⟨S_, .i32⟩
  | .hbm, ⟨44, _⟩ => ⟨S1376, .i32⟩
  | .hbm, ⟨45, _⟩ => ⟨S3301376, .i32⟩
  | .hbm, ⟨46, _⟩ => ⟨S_, .f32⟩
  | .hbm, ⟨47, _⟩ => ⟨S1376, .f32⟩
  | .hbm, ⟨48, _⟩ => ⟨S3301376, .f32⟩
  | .hbm, ⟨49, _⟩ => ⟨S_, .i32⟩
  | .hbm, ⟨50, _⟩ => ⟨S3301376, .i32⟩
  | .hbm, ⟨51, _⟩ => ⟨S3301376, .i1⟩
  | .hbm, ⟨52, _⟩ => ⟨S_, .i32⟩
  | .hbm, ⟨53, _⟩ => ⟨S3301376, .i32⟩
  | .hbm, ⟨54, _⟩ => ⟨S3301376, .i32⟩
  | .hbm, ⟨55, _⟩ => ⟨S3301376, .i32⟩
  | .hbm, ⟨56, _⟩ => ⟨S3301376x1, .i32⟩
  | .hbm, ⟨57, _⟩ => ⟨S3301376x64, .f32⟩
  | .hbm, ⟨58, _⟩ => ⟨S3301376x1, .f32⟩
  | .hbm, ⟨59, _⟩ => ⟨S3301376x64, .f32⟩
  | .hbm, ⟨60, _⟩ => ⟨S_, .f32⟩
  | .hbm, ⟨61, _⟩ => ⟨S100000x64, .f32⟩
  | .hbm, ⟨62, _⟩ => ⟨S3301376x1, .i32⟩
  | .hbm, ⟨63, _⟩ => ⟨S100000x64, .f32⟩
  | .hbm, ⟨64, _⟩ => ⟨S1x64, .f32⟩
  | .hbm, ⟨65, _⟩ => ⟨S1x16, .f32⟩
  | .hbm, ⟨66, _⟩ => ⟨S100000x64, .f32⟩
  | .hbm, ⟨67, _⟩ => ⟨S100000x16, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S8192x64, .f32⟩
  | .local _ .vmem, ⟨6, _⟩ => ⟨S8192x64, .f32⟩
  | .local _ .vmem, ⟨7, _⟩ => ⟨S8192x1, .f32⟩
  | .local _ .vmem, ⟨8, _⟩ => ⟨S8192x1, .f32⟩
  | .local _ .vmem, ⟨9, _⟩ => ⟨S8192x64, .f32⟩
  | .local _ .vmem, ⟨10, _⟩ => ⟨S8192x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x16, .f32⟩
  | .local _ .vmem, ⟨15, _⟩ => ⟨S1x16, .f32⟩
  | .local _ .vmem, ⟨16, _⟩ => ⟨S10000x64, .f32⟩
  | .local _ .vmem, ⟨17, _⟩ => ⟨S10000x64, .f32⟩
  | .local _ .vmem, ⟨18, _⟩ => ⟨S10000x16, .f32⟩
  | .local _ .vmem, ⟨19, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48_0 : Ref sig .tc := ⟨.hbm, 66, rfl⟩
abbrev main_v48_1 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![403], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S10000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S1376 : S_.BroadcastsInDim S1376 (![] : Fin 0 → Fin S1376.rank)
  concatenates_S3300000_S1376_S3301376_d0 : Shape.Concatenates [S3300000, S1376] S3301376 0
  bcast_S_S3301376 : S_.BroadcastsInDim S3301376 (![] : Fin 0 → Fin S3301376.rank)
  bcast_S3301376_S3301376x1_0 : S3301376.BroadcastsInDim S3301376x1 (![0] : Fin 1 → Fin S3301376x1.rank)
  shapeCasts_S3301376_S3301376x1 : S3301376.ShapeCasts S3301376x1
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x64 : S8192x1.Broadcasts S8192x64
  bcast_S_S100000x64 : S_.BroadcastsInDim S100000x64 (![] : Fin 0 → Fin S100000x64.rank)
  shapeCasts_S64_S1x64 : S64.ShapeCasts S1x64
  shapeCasts_S16_S1x16 : S16.ShapeCasts S1x16
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3301376x1_S3301376x64_1_0_n_n_0_1_164_wf : GatherDims.WF S100000x64 S3301376x1 S3301376x64 [1] [0] [] [0] [] 1 ![1, 64]
  scatter_S100000x64_S3301376x1_S3301376x64_1_0_0_1_wf : ScatterDims.WF S100000x64 S3301376x1 S3301376x64 [1] [0] [0] 1
  dot_S10000x64_S64x16_S10000x16_1_0_0_1_n_n_wf : DotDims.WF S10000x64 S64x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S3301376x64.size a
  hwx1_0 : ∀ i : grid1.Coords, EltTy.bits .f32 = 32 ∨ (Rect.block (s := S3301376x64) S8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S3301376x1.size a
  hwx1_1 : ∀ i : grid1.Coords, EltTy.bits .f32 = 32 ∨ (Rect.block (s := S3301376x1) S8192x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S3301376x64.size a
  hwx1_2 : ∀ i : grid1.Coords, EltTy.bits .f32 = 32 ∨ (Rect.block (s := S3301376x64) S8192x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x16.size a ≤ S64x16.size a
  hwx2_2 : ∀ i : grid2.Coords, EltTy.bits .f32 = 32 ∨ (Rect.block (s := S64x16) S64x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .f32 = 32 ∨ (Rect.block (s := S100000x64) S10000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x16.size a ≤ S100000x16.size a
  hwx2_5 : ∀ i : grid2.Coords, EltTy.bits .f32 = 32 ∨ (Rect.block (s := S100000x16) S10000x16.size (cc2_transform_5 i) (hinb2_5 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3301376x1_S3301376x64_1_0_n_n_0_1_164 : GatherDims S100000x64 S3301376x1 S3301376x64 where
  offsetDims := [1]
  collapsedSliceDims := [0]
  operandBatchingDims := []
  startIndicesBatchingDims := []
  startIndexMap := [0]
  indexVectorDim := 1
  sliceSizes := ![1, 64]
  wf := gather_S100000x64_S3301376x1_S3301376x64_1_0_n_n_0_1_164_wf
def scatter_S100000x64_S3301376x1_S3301376x64_1_0_0_1 : ScatterDims S100000x64 S3301376x1 S3301376x64 where
  updateWindowDims := [1]
  insertedWindowDims := [0]
  scatterDimsToOperandDims := [0]
  indexVectorDim := 1
  wf := scatter_S100000x64_S3301376x1_S3301376x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S8192x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S64x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48_0) S10000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v48_1) S10000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x16 : Shape := ⟨2, ![100000, 16]⟩
abbrev S1x16 : Shape := ⟨2, ![1, 16]⟩

abbrev nBuf : Space → Nat
  | .hbm => 66
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3300000, .i32⟩
  | .hbm, ⟨22, _⟩ => ⟨S3300000, .i1⟩
  | .hbm, ⟨23, _⟩ => ⟨S_, .i32⟩
  | .hbm, ⟨24, _⟩ => ⟨S3300000, .i32⟩
  | .hbm, ⟨25, _⟩ => ⟨S3300000, .i32⟩
  | .hbm, ⟨26, _⟩ => ⟨S3300000, .i32⟩
  | .hbm, ⟨27, _⟩ => ⟨S3300000x1, .i32⟩
  | .hbm, ⟨28, _⟩ => ⟨S3300000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S100000x64, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000x64, .f32⟩
  | .hbm, ⟨49, _⟩ => ⟨S3300000x1, .f32⟩
  | .hbm, ⟨50, _⟩ => ⟨S3300000x64, .f32⟩
  | .hbm, ⟨51, _⟩ => ⟨S3300000x64, .f32⟩
  | .hbm, ⟨52, _⟩ => ⟨S_, .f32⟩
  | .hbm, ⟨53, _⟩ => ⟨S100000x64, .f32⟩
  | .hbm, ⟨54, _⟩ => ⟨S3300000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x16_S100000x16_1_0_0_1_n_n_wf : DotDims.WF S100000x64 S64x16 S100000x16 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.LibPlainDot.lean ====
/-
  A plain matrix product read at a row and a column.

  For the dimension numbers "contract the left operand's columns with the right operand's rows, no batch axis"
  (`DotDims.plain M K N`), a `tpu.matmul` into an accumulator of zeros, read on the extended reals at row `p`
  and column `q`, is `Σₜ A[p, t] · B[t, q]` over `t : Fin K`: the accumulator contributes `0`, and the sum over
  the one-axis contraction index is re-indexed by that axis's coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The left operand's index at output `(p, q)` and contraction coordinate `t` is `(p, t)`. -/
theorem lhsIdx_eq (M K N : Nat) (p : Fin M) (q : Fin N) (t : Fin K) :
    (DotDims.plain M K N).lhsIdx (ix2 p q) ((contrEquiv1 (DotDims.plain M K N) K rfl rfl).symm t) = ix2 p t := by
  have hk := contrEquiv1_symm_val (DotDims.plain M K N) K rfl rfl t
  funext a
  apply Fin.ext
  match a with
  | ⟨0, _⟩ => rfl
  | ⟨1, _⟩ => exact ((DotDims.plain M K N).lhsIdx_val_of_single rfl (ix2 p q) _).trans hk

/-- The right operand's is `(t, q)`. -/
theorem rhsIdx_eq (M K N : Nat) (p : Fin M) (q : Fin N) (t : Fin K) :
    (DotDims.plain M K N).rhsIdx (ix2 p q) ((contrEquiv1 (DotDims.plain M K N) K rfl rfl).symm t) = ix2 t q := by
  have hk := contrEquiv1_symm_val (DotDims.plain M K N) K rfl rfl t
  funext a
  apply Fin.ext
  match a with
  | ⟨0, _⟩ => exact ((DotDims.plain M K N).rhsIdx_val_of_single rfl (ix2 p q) _).trans hk
  | ⟨1, _⟩ => rfl

/-- A plain `M × K` by `K × N` product into zeros, at row `p` and column `q`, is `Σₜ A[p, t] · B[t, q]`. -/
theorem matmul_zero_apply {φ₁ φ₂ : FTy} (M K N : Nat) (prec : Option ContractPrecision)
    (A : FVec Ideal ⟨2, ![M, K]⟩ φ₁) (B : FVec Ideal ⟨2, ![K, N]⟩ φ₂) (p : Fin M) (q : Fin N) :
    FloatOps.matmul (DotDims.plain M K N) prec A B (constant ⟨2, ![M, N]⟩ .f32 0x00000000#32) (ix2 p q)
      = ∑ t : Fin K, A (ix2 p t) * B (ix2 t q) := by
  rw [Ideal.matmul_constant_zero_apply, ← Equiv.sum_comp (contrEquiv1 (DotDims.plain M K N) K rfl rfl).symm]
  refine Finset.sum_congr rfl fun t _ => ?_
  rw [lhsIdx_eq, rhsIdx_eq]

end Idealize.ShloMosaic.PlainDot

end
-- ==== Proof.Region0.lean ====
import proofs.«123890_j30983894073976_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«123890_j30983894073976_1_alg».proof.Proof.LibPlainDot
set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered, at the ideal instance
variable (V : (c : Dev nD) → (b : Ref sig .tc) → Buf (Elt Ideal) ((c : Thread nD τ).loc b))

/-- The arrays of region 0 at their literal types: the output after the region, and the two operands as entered. -/
abbrev xwArr (c : Dev nD) : S100000x64.Idx → EReal := (dat0 (F := Ideal) V c).arrAt 2 cfg0.N
abbrev arrX (c : Dev nD) : S100000x128.Idx → EReal := V c main_arg0
abbrev arrWg (c : Dev nD) : S128x64.Idx → EReal := V c main_arg2

/-- The zero offsets of a whole-buffer access, however spelt. -/
theorem r0_zeroOff : (![0, 0] : Fin 2 → Nat) = fun _ => 0 := funext fun a => by fin_cases a <;> rfl

/-- The product of a [100000×128] array by a [128×64] array, index by index: at row `i 0` and column `i 1` the sum
    over `k` of the left operand at `(i 0, k)` times the right at `(k, i 1)`. -/
def r0_xwOf (A : S100000x128.Idx → EReal) (B : S128x64.Idx → EReal) : S100000x64.Idx → EReal :=
  fun i => ∑ k : Fin 128, A (ix2 (n0 := 100000) (i 0) k) * B (ix2 (n1 := 64) k (i 1))

theorem r0_xwOf_apply (A : S100000x128.Idx → EReal) (B : S128x64.Idx → EReal) (p : Fin 100000) (q : Fin 64) :
    r0_xwOf A B (ix2 p q) = ∑ k : Fin 128, A (ix2 p k) * B (ix2 k q) := rfl

/-- The body's payload on a block of 10000 rows, at row `a` and column `b`: the two narrowings are the identity on
    extended reals and the product into zeros is the sum of products. -/
theorem r0_pay_apply (x0 : Vec Ideal S10000x128 .f32) (x1 : Vec Ideal S128x64 .f32) (a : Fin 10000) (b : Fin 64) :
    (k0_pay1 (F := Ideal) x0 x1 : S10000x64.Idx → EReal) (ix2 a b)
      = ∑ k : Fin 128, (x0 : S10000x128.Idx → EReal) (ix2 a k) * (x1 : S128x64.Idx → EReal) (ix2 k b) := by
  unfold k0_pay1
  exact PlainDot.matmul_zero_apply 10000 128 64 none (truncf .bf16 x0 bitsLt_bf16_f32) (truncf .bf16 x1 bitsLt_bf16_f32) a b

/-- The index maps, decided once over the ten grid points: the left operand's and the output's row blocks are
    the point's own, on the column axis every block index is zero, and the right operand's block never moves. -/
theorem r0_idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The left operand's block at point `t`, at row `a` and column `k` of the block, is the array at row `10000 t + a`. -/
theorem r0_blockX_apply (c : Dev nD) (t : Fin cfg0.N) (a : Fin 10000) (k : Fin 128) (r : Fin 100000)
    (hr : r.val = t.val * 10000 + a.val) :
    (iblk0 (F := Ideal) V c 0 t : S10000x128.Idx → EReal) (ix2 a k) = arrX V c (ix2 r k) := by
  obtain ⟨e0, e1, -, -, -, -⟩ := r0_idx_facts t
  unfold iblk0
  rw [View.read_apply]
  show (V c main_arg0 : S100000x128.Idx → EReal) _ = (V c main_arg0 : S100000x128.Idx → EReal) _
  congr 1
  funext x
  apply Fin.ext
  match x with
  | ⟨0, _⟩ => show win0_0.index t (0 : Fin 2) * 10000 + 1 * a.val = r.val; rw [e0, hr]; omega
  | ⟨1, _⟩ => show win0_0.index t (1 : Fin 2) * 128 + 1 * k.val = k.val; rw [e1]; omega

/-- The right operand's block at any point is the whole array. -/
theorem r0_blockWg_apply (c : Dev nD) (t : Fin cfg0.N) (k : Fin 128) (b : Fin 64) :
    (iblk0 (F := Ideal) V c 1 t : S128x64.Idx → EReal) (ix2 k b) = arrWg V c (ix2 k b) := by
  obtain ⟨-, -, e2, e3, -, -⟩ := r0_idx_facts t
  unfold iblk0
  rw [View.read_apply]
  show (V c main_arg2 : S128x64.Idx → EReal) _ = (V c main_arg2 : S128x64.Idx → EReal) _
  congr 1
  funext x
  apply Fin.ext
  match x with
  | ⟨0, _⟩ => show win0_1.index t (0 : Fin 2) * 128 + 1 * k.val = k.val; rw [e2]; omega
  | ⟨1, _⟩ => show win0_1.index t (1 : Fin 2) * 64 + 1 * b.val = b.val; rw [e3]; omega

/-- What point `t` writes back to the output array is block `t` of the product of the two arrays as entered. -/
theorem r0_flushed_eq (c : Dev nD) (t : Fin cfg0.N) :
    (dat0 (F := Ideal) V c).flushed 2 t
      = ((cfg0.win 2).blk t).view.read (Elt Ideal) (r0_xwOf (arrX V c) (arrWg V c)) := by
  show (cfg0.win 2).cut (grid0.coords t) ((dat0 (F := Ideal) V c).after 2 t) = _
  rw [after0_2]
  unfold out0_2
  rw [View.canon_unit_zero r0_zeroOff]
  simp only [View.ld_unit_zero (S := S10000x128) r0_zeroOff, View.ld_unit_zero (S := S128x64) r0_zeroOff]
  obtain ⟨-, -, -, -, e4, e5⟩ := r0_idx_facts t
  funext j
  obtain ⟨a, b, rfl⟩ : ∃ (a : Fin 10000) (b : Fin 64), j = ix2 a b := ⟨j 0, j 1, eq_ix2 j⟩
  have ht : t.val < 10 := lt_of_lt_of_eq t.isLt (N_0 : cfg0.N = 10)
  -- the row of the array that row `a` of block `t` is
  have hr : t.val * 10000 + a.val < 100000 := by have := a.isLt; omega
  have hemb : ((cfg0.win 2).blk t).view.emb (ix2 a b) = ix2 (⟨t.val * 10000 + a.val, hr⟩ : Fin 100000) b := by
    funext x
    apply Fin.ext
    match x with
    | ⟨0, _⟩ => show win0_2.index t (0 : Fin 2) * 10000 + 1 * a.val = t.val * 10000 + a.val; rw [e4]; omega
    | ⟨1, _⟩ => show win0_2.index t (1 : Fin 2) * 64 + 1 * b.val = b.val; rw [e5]; omega
  rw [View.read_apply, hemb]
  show (k0_pay1 (F := Ideal) (iblk0 V c 0 t) (iblk0 V c 1 t) : S10000x64.Idx → EReal) (ix2 a b)
      = r0_xwOf (arrX V c) (arrWg V c) (ix2 (⟨t.val * 10000 + a.val, hr⟩ : Fin 100000) b)
  rw [r0_pay_apply, r0_xwOf_apply]
  refine Finset.sum_congr rfl fun k _ => ?_
  rw [r0_blockX_apply V c t a k ⟨t.val * 10000 + a.val, hr⟩ rfl, r0_blockWg_apply V c t k b]

/-- An index of the output array is in point `t`'s block iff each coordinate is in the block's range on its axis. -/
theorem r0_mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v27).slice (win0_2.rect t)).set ↔ _
  rw [View.set_slice_whole, Rect.mem_set_unit]
  exact Iff.rfl

/-- Every row of the output array is in the block of the point `row / 10000`: the ten blocks of 10000 rows tile it. -/
theorem r0_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨-, -, -, -, e4, e5⟩ := r0_idx_facts t
  have e4' : win0_2.index t (0 : Fin 2) = (i 0).val / 10000 := e4
  refine ⟨t, flush0_2 t, ?_⟩
  rw [r0_mem_blk]
  intro a
  match a with
  | ⟨0, _⟩ => show win0_2.index t (0 : Fin 2) * 10000 ≤ (i 0).val ∧ (i 0).val < win0_2.index t (0 : Fin 2) * 10000 + 10000; rw [e4']; omega
  | ⟨1, _⟩ => show win0_2.index t (1 : Fin 2) * 64 ≤ (i 1).val ∧ (i 1).val < win0_2.index t (1 : Fin 2) * 64 + 64; rw [e5]; omega

/-- So after the ten points the output array is the product of the two arrays as entered. -/
theorem r0_xwArr_eq (c : Dev nD) : xwArr V c = r0_xwOf (arrX V c) (arrWg V c) :=
  (dat0 (F := Ideal) V c).arrAt_eq_of_cover 2 (r0_xwOf (arrX V c) (arrWg V c)) (fun t _ => r0_flushed_eq V c t) r0_cover

/-- REGION 0 (the dense transform): after the ten grid points the output array holds, at row `p` and column `q`,
    the sum over `k` of the first operand at `(p, k)` times the second at `(k, q)`. -/
theorem xw_final (c : Dev nD) (p : Fin 100000) (q : Fin 64) :
    xwArr V c (ix2 p q) = ∑ k : Fin 128, arrX V c (ix2 p k) * arrWg V c (ix2 k q) := by
  rw [r0_xwArr_eq, r0_xwOf_apply]

end Cert.KernelIdeal.Hand

end
-- ==== Proof.Region1.lean ====
import proofs.«123890_j30983894073976_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered, at the ideal instance
variable (V : (c : Dev nD) → (b : Ref sig .tc) → Buf (Elt Ideal) ((c : Thread nD τ).loc b))

/-- The arrays of region 1 at their literal types: the output after the region, and the two operands as entered. -/
abbrev msgArr (c : Dev nD) : S3301376x64.Idx → EReal := (dat1 (F := Ideal) V c).arrAt 2 cfg1.N
abbrev arr40 (c : Dev nD) : S3301376x64.Idx → EReal := V c main_v40
abbrev arr41 (c : Dev nD) : S3301376x1.Idx → EReal := V c main_v41

/-! ## The body's value at an index -/

/-- The zero offsets of a whole-buffer access, however spelt. -/
theorem r1_zero_offsets : (![0, 0] : Fin 2 → Nat) = fun _ => 0 := funext fun a => by fin_cases a <;> rfl

/-- A one-column array `[a, 1]` broadcast to `[a, b]` reads, at `(p, k)`, the operand's row `p`. -/
theorem r1_broadcastTo_a1_ab_apply {α : Type} {a b : ℕ} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-- The body's payload at `(a, b)` of the block: the first block's entry there times the second block's entry in row `a`. -/
theorem r1_pay_apply (x0 : Vec Ideal S8192x64 .f32) (x1 : Vec Ideal S8192x1 .f32) (a : Fin 8192) (b : Fin 64) :
    k1_pay1 x0 x1 (ix2 a b)
      = FloatOps.mulf (F := Ideal) (φ := .f32) (x0 (ix2 a b)) (x1 (ix2 a (0 : Fin 1))) := by
  unfold k1_pay1
  show FloatOps.mulf (F := Ideal) (φ := .f32) (shapeCast S8192x64 x0 shapeCasts_S8192x64_S8192x64 (ix2 a b))
      (broadcastTo S8192x64 (shapeCast S8192x1 x1 shapeCasts_S8192x1_S8192x1) broadcasts_S8192x1_S8192x64 (ix2 a b)) = _
  rw [shapeCast_self, shapeCast_self, r1_broadcastTo_a1_ab_apply]

/-! ## The whole array the region leaves -/

/-- Each row of the first operand scaled by the second operand's entry in that row. -/
def r1_rowScale (a0 : S3301376x64.Idx → EReal) (a1 : S3301376x1.Idx → EReal) : S3301376x64.Idx → EReal :=
  fun i => FloatOps.mulf (F := Ideal) (φ := .f32) (a0 i) (a1 (ix2 (⟨(i 0).val, idx2_lt0 i⟩ : Fin 3301376) (0 : Fin 1)))

/-- At `(r, q)` it is the first operand there times the second at `(r, 0)`. -/
theorem r1_rowScale_apply (a0 : S3301376x64.Idx → EReal) (a1 : S3301376x1.Idx → EReal) (r : Fin 3301376) (q : Fin 64) :
    r1_rowScale a0 a1 (ix2 r q) = FloatOps.mulf (F := Ideal) (φ := .f32) (a0 (ix2 r q)) (a1 (ix2 r (0 : Fin 1))) := rfl

/-- The index maps over the 403 grid points: each window's block index is the point's number along the rows and
    zero along the columns. -/
theorem r1_index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The first operand's block at point `t`, at `(a, b)`, is the operand at row `8192 t + a`, column `b`. -/
theorem r1_iblk0_apply (c : Dev nD) (t : Fin cfg1.N) (a : Fin 8192) (b : Fin 64) (r : Fin 3301376)
    (hr : r.val = t.val * 8192 + a.val) :
    (iblk1 V c 0 t : Vec Ideal S8192x64 .f32) (ix2 a b) = arr40 V c (ix2 r b) := by
  obtain ⟨e0, e1, -⟩ := r1_index_facts t
  unfold iblk1
  rw [View.read_apply]
  show V c main_v40 _ = V c main_v40 _
  congr 1
  funext ax
  apply Fin.ext
  match ax with
  | ⟨0, _⟩ => show win1_0.index t (0 : Fin 2) * 8192 + 1 * a.val = r.val; omega
  | ⟨1, _⟩ => show win1_0.index t (1 : Fin 2) * 64 + 1 * b.val = b.val; omega

/-- The second operand's block at point `t`, at `(a, 0)`, is the operand at row `8192 t + a`. -/
theorem r1_iblk1_apply (c : Dev nD) (t : Fin cfg1.N) (a : Fin 8192) (r : Fin 3301376)
    (hr : r.val = t.val * 8192 + a.val) :
    (iblk1 V c 1 t : Vec Ideal S8192x1 .f32) (ix2 a (0 : Fin 1)) = arr41 V c (ix2 r (0 : Fin 1)) := by
  obtain ⟨-, -, e2, e3, -⟩ := r1_index_facts t
  unfold iblk1
  rw [View.read_apply]
  show V c main_v41 _ = V c main_v41 _
  congr 1
  funext ax
  apply Fin.ext
  match ax with
  | ⟨0, _⟩ => show win1_1.index t (0 : Fin 2) * 8192 + 1 * a.val = r.val; omega
  | ⟨1, _⟩ => show win1_1.index t (1 : Fin 2) * 1 + 1 * 0 = 0; omega

/-- What point `t` writes back is block `t` of the row scaling of the two operands as the region finds them. -/
theorem r1_flushed_eq (c : Dev nD) (t : Fin cfg1.N) :
    (dat1 (F := Ideal) V c).flushed 2 t
      = ((cfg1.win 2).blk t).view.read (Elt Ideal) (r1_rowScale (arr40 V c) (arr41 V c)) := by
  show (cfg1.win 2).cut (grid1.coords t) ((dat1 (F := Ideal) V c).after 2 t) = _
  rw [after1_2]
  unfold out1_2
  rw [View.canon_unit_zero r1_zero_offsets]
  simp only [View.ld_unit_zero (S := S8192x64) r1_zero_offsets, View.ld_unit_zero (S := S8192x1) r1_zero_offsets]
  obtain ⟨-, -, -, -, e4, e5⟩ := r1_index_facts t
  have hN : t.val < 403 := t.isLt
  funext j
  obtain ⟨a, b, rfl⟩ : ∃ (a : Fin 8192) (b : Fin 64), j = ix2 a b := ⟨j 0, j 1, eq_ix2 j⟩
  have ha : a.val < 8192 := a.isLt
  rw [View.read_apply]
  show k1_pay1 (iblk1 V c 0 t) (iblk1 V c 1 t) (ix2 a b)
      = r1_rowScale (arr40 V c) (arr41 V c) (((cfg1.win 2).blk t).view.emb (ix2 a b))
  have hemb : ((cfg1.win 2).blk t).view.emb (ix2 a b)
      = ix2 (⟨t.val * 8192 + a.val, by omega⟩ : Fin 3301376) b := by
    funext ax
    apply Fin.ext
    match ax with
    | ⟨0, _⟩ => show win1_2.index t (0 : Fin 2) * 8192 + 1 * a.val = t.val * 8192 + a.val; omega
    | ⟨1, _⟩ => show win1_2.index t (1 : Fin 2) * 64 + 1 * b.val = b.val; omega
  rw [hemb, r1_rowScale_apply, r1_pay_apply,
    r1_iblk0_apply V c t a b ⟨t.val * 8192 + a.val, by omega⟩ rfl,
    r1_iblk1_apply V c t a ⟨t.val * 8192 + a.val, by omega⟩ rfl]

/-- An index of the array is in point `t`'s block iff each coordinate is in the block's range on its axis. -/
theorem r1_mem_blk (t : Fin cfg1.N) (i : S3301376x64.Idx) :
    i ∈ ((cfg1.win 2).blk t).view.set
      ↔ ∀ a : Fin 2, win1_2.index t a * S8192x64.size a ≤ (i a).val
          ∧ (i a).val < win1_2.index t a * S8192x64.size a + S8192x64.size a := by
  show i ∈ ((View.whole main_v42).slice (win1_2.rect t)).set ↔ _
  rw [View.set_slice_whole, Rect.mem_set_unit]
  exact Iff.rfl

/-- Every index of the array is in some point's block: row `r` in that of point `r / 8192`. -/
theorem r1_cover (i : S3301376x64.Idx) :
    ∃ t : Fin cfg1.N, (cfg1.win 2).flush t = true ∧ i ∈ ((cfg1.win 2).blk t).view.set := by
  have hi0 : (i 0).val < 3301376 := idx2_lt0 i
  have hi1 : (i 1).val < 64 := idx2_lt1 i
  refine ⟨⟨(i 0).val / 8192, by show (i 0).val / 8192 < 403; omega⟩, flush1_2 _, ?_⟩
  rw [r1_mem_blk]
  obtain ⟨-, -, -, -, e4, e5⟩ := r1_index_facts ⟨(i 0).val / 8192, by show (i 0).val / 8192 < 403; omega⟩
  intro a
  match a with
  | ⟨0, _⟩ =>
    show win1_2.index _ (0 : Fin 2) * 8192 ≤ (i 0).val ∧ (i 0).val < win1_2.index _ (0 : Fin 2) * 8192 + 8192
    rw [e4]; show (i 0).val / 8192 * 8192 ≤ (i 0).val ∧ (i 0).val < (i 0).val / 8192 * 8192 + 8192; omega
  | ⟨1, _⟩ =>
    show win1_2.index _ (1 : Fin 2) * 64 ≤ (i 1).val ∧ (i 1).val < win1_2.index _ (1 : Fin 2) * 64 + 64
    rw [e5]; omega

/-- The output array after the region is the row scaling of the two operands. -/
theorem r1_msg_array (c : Dev nD) : msgArr V c = r1_rowScale (arr40 V c) (arr41 V c) :=
  (dat1 (F := Ideal) V c).arrAt_eq_of_cover 2 (r1_rowScale (arr40 V c) (arr41 V c)) (fun t _ => r1_flushed_eq V c t) r1_cover

/-- REGION 1 (the row scaling): after the 403 grid points the output array holds, at row `r` and column `q`,
    the first operand at `(r, q)` times the second operand (one column) at `(r, 0)`. -/
theorem msg_final (c : Dev nD) (r : Fin 3301376) (q : Fin 64) :
    msgArr V c (ix2 r q)
      = FloatOps.mulf (F := Ideal) (φ := .f32) (arr40 V c (ix2 r q)) (arr41 V c (ix2 r (0 : Fin 1))) := by
  rw [r1_msg_array, r1_rowScale_apply]

end Cert.KernelIdeal.Hand

end
-- ==== Proof.LibMatrixReads.lean ====
/-
  Matrices read at a row and a column, and a sum over consecutive runs.

  For arrays with two axes of literal extents: a single row broadcast down the rows reads that row; a slice at a
  row offset and a column offset reads the operand that many rows down and columns to the right; a transpose
  swaps the coordinates; a vector laid out as a single row reads the vector. And in any commutative monoid a sum
  over `a + b` consecutive terms is the sum of the first `a` plus the sum of the last `b`.
-/
import Idealize.ShloMosaic.Lib.Pipeline.Value
import Idealize.ShloMosaic.Lib.ValueIdx
import Mathlib.Algebra.BigOperators.Fin

noncomputable section

open scoped BigOperators

namespace Idealize.ShloMosaic.MatrixReads

open Idealize.ShloMosaic Idealize.ShloMosaic.ValueIdx

/-- A single row broadcast down `m` rows reads that row at every row. -/
theorem rowBroadcast_apply {α : Type} (m n : Nat) (x : (⟨2, ![1, n]⟩ : Shape).Idx → α)
    (h : (⟨2, ![1, n]⟩ : Shape).Broadcasts ⟨2, ![m, n]⟩) (p : Fin m) (j : Fin n) :
    broadcastTo ⟨2, ![m, n]⟩ x h (ix2 p j) = x (ix2 (0 : Fin 1) j) := by
  refine broadcastTo_apply x h (ix2 p j) (ix2 0 j) fun a => ?_
  match a with
  | ⟨0, _⟩ => rfl
  | ⟨1, _⟩ =>
    show j.val = if n = 1 then 0 else j.val
    have := j.isLt
    split_ifs with hn
    · omega
    · rfl

/-- A slice of columns `off … off + n' - 1` reads the operand `off` columns to the right. -/
theorem colSlice_apply {α : Type} (m n n' off : Nat) (x : (⟨2, ![m, n]⟩ : Shape).Idx → α)
    (h : (⟨2, ![m, n]⟩ : Shape).Slices ![0, off] ⟨2, ![m, n']⟩) (p : Fin m) (j : Fin n') (hj : j.val + off < n) :
    extractStridedSlice ⟨2, ![m, n']⟩ ![0, off] x h (ix2 p j) = x (ix2 p (⟨j.val + off, hj⟩ : Fin n)) := by
  refine extractStridedSlice_apply _ x h (ix2 p j) _ fun a => ?_
  match a with
  | ⟨0, _⟩ => show p.val = 0 + p.val; omega
  | ⟨1, _⟩ => show j.val + off = off + j.val; omega

/-- A slice of a matrix at row offset `o0` and column offset `o1`. -/
theorem slice2_apply {α : Type} (m n m' n' o0 o1 : Nat) (x : (⟨2, ![m, n]⟩ : Shape).Idx → α)
    (h : (⟨2, ![m, n]⟩ : Shape).Slices ![o0, o1] ⟨2, ![m', n']⟩) (p : Fin m') (j : Fin n')
    (hp : p.val + o0 < m) (hj : j.val + o1 < n) :
    extractStridedSlice ⟨2, ![m', n']⟩ ![o0, o1] x h (ix2 p j) = x (ix2 (⟨p.val + o0, hp⟩ : Fin m) (⟨j.val + o1, hj⟩ : Fin n)) := by
  refine extractStridedSlice_apply _ x h (ix2 p j) _ fun a => ?_
  match a with
  | ⟨0, _⟩ => show p.val + o0 = o0 + p.val; omega
  | ⟨1, _⟩ => show j.val + o1 = o1 + j.val; omega

/-- The transpose of a matrix. -/
theorem transpose2_apply {α : Type} (m n : Nat) (x : (⟨2, ![m, n]⟩ : Shape).Idx → α)
    (h : (⟨2, ![m, n]⟩ : Shape).Transposes [1, 0] ⟨2, ![n, m]⟩) (k : Fin n) (j : Fin m) :
    transpose ⟨2, ![n, m]⟩ [1, 0] x h (ix2 k j) = x (ix2 j k) :=
  transpose_apply [1, 0] x h (ix2 k j) (ix2 j k) (fun b => match b with
    | ⟨0, _⟩ => rfl
    | ⟨1, _⟩ => rfl)

/-- A vector laid out as a single row. -/
theorem rowOfVec_apply {α : Type} (n : Nat) (x : (⟨1, ![n]⟩ : Shape).Idx → α)
    (h : (⟨1, ![n]⟩ : Shape).ShapeCasts ⟨2, ![1, n]⟩) (j : Fin n) :
    shapeCast ⟨2, ![1, n]⟩ x h (ix2 (0 : Fin 1) j) = x (ix1 j) := by
  refine shapeCast_apply x h _ _ ?_
  rw [Shape.rowMajor_val_one, Shape.rowMajor_val_two]
  show j.val = (0 : Nat) * n + j.val
  omega

/-- A sum over `a + b` terms is the sum of the first `a` plus the sum of the last `b`. -/
theorem sum_two_runs {M : Type} [AddCommMonoid M] (a b : Nat) (f : Fin (a + b) → M) :
    ∑ k, f k = (∑ k : Fin a, f ⟨k.val, by omega⟩) + ∑ k : Fin b, f ⟨k.val + a, by omega⟩ := by
  rw [Fin.sum_univ_add]
  congr 1
  refine Finset.sum_congr rfl fun k _ => congrArg f (Fin.ext ?_)
  simp [Fin.natAdd, Nat.add_comm]

end Idealize.ShloMosaic.MatrixReads

end
-- ==== Proof.Region2.lean ====
import proofs.«123890_j30983894073976_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«123890_j30983894073976_1_alg».proof.Proof.LibPlainDot
import proofs.«123890_j30983894073976_1_alg».proof.Proof.LibMatrixReads
set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered, at the ideal instance
variable (V : (c : Dev nD) → (b : Ref sig .tc) → Buf (Elt Ideal) ((c : Thread nD τ).loc b))

/-- The arrays of region 2 at their literal types: the two outputs after the region, and the four operands as entered. -/
abbrev hArr (c : Dev nD) : S100000x64.Idx → EReal := (dat2 (F := Ideal) V c).arrAt 4 cfg2.N
abbrev zArr (c : Dev nD) : S100000x16.Idx → EReal := (dat2 (F := Ideal) V c).arrAt 5 cfg2.N
abbrev arrAgg (c : Dev nD) : S100000x64.Idx → EReal := V c main_v45
abbrev arrBg (c : Dev nD) : S1x64.Idx → EReal := V c main_v46
abbrev arrWo (c : Dev nD) : S64x16.Idx → EReal := V c main_arg4
abbrev arrBo (c : Dev nD) : S1x16.Idx → EReal := V c main_v47

/-- The hidden layer's entry from the aggregate `a` and the bias `b`: `max (a + b) 0`, in the printed scalar operations. -/
abbrev hid (a b : EReal) : EReal :=
  FloatOps.maximumf (F := Ideal) (φ := .f32) (FloatOps.addf (F := Ideal) (φ := .f32) a b) (FloatOps.ofBits (F := Ideal) .f32 0x00000000#32)

/-! ## The body's two payloads at an index -/

/-- The two zero offsets of a whole-buffer access are the constant zero function. -/
theorem r2_zeroOff : (![0, 0] : Fin 2 → Nat) = fun _ => 0 := funext fun a => by fin_cases a <;> rfl

/-- The first payload at row `a`, column `b` of a block: the hidden entry of the block's aggregate there and the
    bias row's entry at column `b` (the bias row is broadcast down the rows). -/
theorem r2_pay1_apply (x0 : FVec Ideal S10000x64 .f32) (x1 : FVec Ideal S1x64 .f32) (a : Fin 10000) (b : Fin 64) :
    k2_pay1 (F := Ideal) x0 x1 (ix2 a b) = hid (x0 (ix2 a b)) (x1 (ix2 (0 : Fin 1) b)) := by
  unfold k2_pay1
  rw [shapeCast_self, shapeCast_self]
  show FloatOps.maximumf (F := Ideal) (φ := .f32) (FloatOps.addf (F := Ideal) (φ := .f32) (x0 (ix2 a b))
      (broadcastTo S10000x64 x1 _ (ix2 a b))) (FloatOps.ofBits (F := Ideal) .f32 0x00000000#32) = _
  rw [MatrixReads.rowBroadcast_apply]

/-- The second payload at row `a`, column `b` of a block: the product of the block's hidden rows with the weight matrix
    there (the narrowing to bf16 is the identity on extended reals, and the product accumulates into zeros), plus the
    output bias row's entry at column `b`. -/
theorem r2_pay2_apply (x0 : FVec Ideal S10000x64 .f32) (x1 : FVec Ideal S1x64 .f32) (x2 : FVec Ideal S64x16 .f32)
    (x3 : FVec Ideal S1x16 .f32) (a : Fin 10000) (b : Fin 16) :
    k2_pay2 (F := Ideal) x0 x1 x2 x3 (ix2 a b)
      = FloatOps.addf (F := Ideal) (φ := .f32)
          (∑ k : Fin 64, hid (x0 (ix2 a k)) (x1 (ix2 (0 : Fin 1) k)) * x2 (ix2 k b)) (x3 (ix2 (0 : Fin 1) b)) := by
  unfold k2_pay2
  rw [shapeCast_self]
  show FloatOps.addf (F := Ideal) (φ := .f32)
      (FloatOps.matmul (DotDims.plain 10000 64 16) none (truncf .bf16 (k2_pay1 (F := Ideal) x0 x1) _) (truncf .bf16 x2 _)
        (constant (F := Ideal) ⟨2, ![10000, 16]⟩ .f32 0x00000000#32) (ix2 a b))
      (broadcastTo S10000x16 x3 _ (ix2 a b)) = _
  rw [PlainDot.matmul_zero_apply, MatrixReads.rowBroadcast_apply]
  simp only [truncf_apply, r2_pay1_apply]

/-! ## The index maps over the grid -/

/-- The printed index maps, decided over the ten grid points: the aggregate's window moves with both outputs' (block row
    `t`, block column 0), the three whole-array windows stay at block (0, 0), and the block row is below 10. -/
theorem r2_idx_facts : ∀ t : Fin cfg2.N,
    win2_0.index t (0 : Fin 2) = win2_4.index t (0 : Fin 2) ∧ win2_0.index t (1 : Fin 2) = 0
    ∧ win2_4.index t (1 : Fin 2) = 0
    ∧ win2_5.index t (0 : Fin 2) = win2_4.index t (0 : Fin 2) ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) ≤ 9 :=
  (by decide +kernel : ∀ t : Fin grid2.N, _)

/-- Every block row below 10 is some grid point's. -/
theorem r2_idx_onto : ∀ q0 : Fin 10, ∃ t : Fin cfg2.N, win2_4.index t (0 : Fin 2) = q0.val ∧ win2_5.index t (0 : Fin 2) = q0.val :=
  (by decide +kernel : ∀ q0 : Fin 10, ∃ t : Fin grid2.N, _)

/-! ## The first output: the hidden layer -/

/-- The hidden layer as one function of the aggregate array and the bias row, index by index. -/
abbrev r2_Ghid (A : S100000x64.Idx → EReal) (bg : S1x64.Idx → EReal) : S100000x64.Idx → EReal :=
  fun i => hid (A i) (bg (ix2 (0 : Fin 1) (i 1 : Fin 64)))

/-- What grid point `t` writes back to the first output is block `t` of `r2_Ghid`. -/
theorem r2_flushed4_eq (c : Dev nD) (t : Fin cfg2.N) :
    (dat2 (F := Ideal) V c).flushed 4 t = ((cfg2.win 4).blk t).view.read (Elt Ideal) (r2_Ghid (arrAgg V c) (arrBg V c)) := by
  show (cfg2.win 4).cut (grid2.coords t) ((dat2 V c).after 4 t) = _
  rw [after2_4]
  unfold out2_4
  rw [View.canon_unit_zero r2_zeroOff]
  simp only [View.ld_unit_zero (S := S10000x64) r2_zeroOff, View.ld_unit_zero (S := S1x64) r2_zeroOff]
  obtain ⟨e00, e01, e41, e50, e51, e10, e11, e20, e21, e30, e31, e4le⟩ := r2_idx_facts t
  funext j
  obtain ⟨a, b, rfl⟩ : ∃ (a : Fin 10000) (b : Fin 64), j = ix2 a b := ⟨j 0, j 1, eq_ix2 j⟩
  show k2_pay1 (iblk2 V c 0 t) (iblk2 V c 1 t) (ix2 a b) = r2_Ghid (arrAgg V c) (arrBg V c) (((cfg2.win 4).blk t).view.emb (ix2 a b))
  rw [r2_pay1_apply]
  have h0 : ((cfg2.win 0).blk t).view.emb (ix2 a b) = ((cfg2.win 4).blk t).view.emb (ix2 a b) := by
    funext d; apply Fin.ext
    match d with
    | ⟨0, _⟩ => show win2_0.index t (0 : Fin 2) * 10000 + 1 * a.val = win2_4.index t (0 : Fin 2) * 10000 + 1 * a.val; omega
    | ⟨1, _⟩ => show win2_0.index t (1 : Fin 2) * 64 + 1 * b.val = win2_4.index t (1 : Fin 2) * 64 + 1 * b.val; omega
  have h1 : ((cfg2.win 1).blk t).view.emb (ix2 (0 : Fin 1) b)
      = ix2 (0 : Fin 1) ((((cfg2.win 4).blk t).view.emb (ix2 a b)) 1 : Fin 64) := by
    funext d; apply Fin.ext
    match d with
    | ⟨0, _⟩ => show win2_1.index t (0 : Fin 2) * 1 + 1 * 0 = 0; omega
    | ⟨1, _⟩ => show win2_1.index t (1 : Fin 2) * 64 + 1 * b.val = win2_4.index t (1 : Fin 2) * 64 + 1 * b.val; omega
  show hid (V c main_v45 (((cfg2.win 0).blk t).view.emb (ix2 a b))) (V c main_v46 (((cfg2.win 1).blk t).view.emb (ix2 (0 : Fin 1) b)))
    = hid (V c main_v45 (((cfg2.win 4).blk t).view.emb (ix2 a b)))
        (V c main_v46 (ix2 (0 : Fin 1) ((((cfg2.win 4).blk t).view.emb (ix2 a b)) 1 : Fin 64)))
  rw [h0, h1]
  rfl

/-- An index of the first output is in point `t`'s block iff each coordinate is in the block's range on its axis. -/
theorem r2_mem_blk4 (t : Fin cfg2.N) (i : S100000x64.Idx) :
    i ∈ ((cfg2.win 4).blk t).view.set ↔ ∀ a : Fin 2, win2_4.index t a * S10000x64.size a ≤ (i a).val ∧ (i a).val < win2_4.index t a * S10000x64.size a + S10000x64.size a := by
  show i ∈ ((View.whole main_v48_0).slice (win2_4.rect t)).set ↔ _
  rw [View.set_slice_whole, Rect.mem_set_unit]
  exact Iff.rfl

/-- The ten row blocks cover the first output: row `r` is in the block of the point whose block row is `r / 10000`. -/
theorem r2_cover4 (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  obtain ⟨t, ht, -⟩ := r2_idx_onto ⟨(i 0).val / 10000, by omega⟩
  have q0 : win2_4.index t (0 : Fin 2) = (i 0).val / 10000 := ht
  obtain ⟨e00, e01, e41, e50, e51, e10, e11, e20, e21, e30, e31, e4le⟩ := r2_idx_facts t
  refine ⟨t, flush2_4 t, ?_⟩
  rw [r2_mem_blk4]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 64 ≤ (i 1).val ∧ (i 1).val < win2_4.index t (1 : Fin 2) * 64 + 64; omega

/-- The first output after the region is `r2_Ghid` of the aggregate array and the bias row. -/
theorem r2_hArr_eq (c : Dev nD) : hArr V c = r2_Ghid (arrAgg V c) (arrBg V c) :=
  (dat2 (F := Ideal) V c).arrAt_eq_of_cover 4 (r2_Ghid (arrAgg V c) (arrBg V c)) (fun t _ => r2_flushed4_eq V c t) r2_cover4

/-- REGION 2, first output: at row `p` and column `q`, `max (agg[p, q] + b[0, q]) 0`. -/
theorem h_final (c : Dev nD) (p : Fin 100000) (q : Fin 64) :
    hArr V c (ix2 p q) = hid (arrAgg V c (ix2 p q)) (arrBg V c (ix2 (0 : Fin 1) q)) := by
  rw [r2_hArr_eq]

/-! ## The second output: the hidden layer times the weights, plus the output bias -/

/-- The second output as one function of the four operand arrays, index by index. -/
abbrev r2_Gz (A : S100000x64.Idx → EReal) (bg : S1x64.Idx → EReal) (Wo : S64x16.Idx → EReal) (bo : S1x16.Idx → EReal) :
    S100000x16.Idx → EReal :=
  fun i => FloatOps.addf (F := Ideal) (φ := .f32)
    (∑ k : Fin 64, hid (A (ix2 (i 0 : Fin 100000) k)) (bg (ix2 (0 : Fin 1) k)) * Wo (ix2 k (i 1 : Fin 16)))
    (bo (ix2 (0 : Fin 1) (i 1 : Fin 16)))

/-- What grid point `t` writes back to the second output is block `t` of `r2_Gz`. -/
theorem r2_flushed5_eq (c : Dev nD) (t : Fin cfg2.N) :
    (dat2 (F := Ideal) V c).flushed 5 t
      = ((cfg2.win 5).blk t).view.read (Elt Ideal) (r2_Gz (arrAgg V c) (arrBg V c) (arrWo V c) (arrBo V c)) := by
  show (cfg2.win 5).cut (grid2.coords t) ((dat2 V c).after 5 t) = _
  rw [after2_5]
  unfold out2_5
  rw [View.canon_unit_zero r2_zeroOff]
  simp only [View.ld_unit_zero (S := S10000x64) r2_zeroOff, View.ld_unit_zero (S := S1x64) r2_zeroOff,
    View.ld_unit_zero (S := S64x16) r2_zeroOff, View.ld_unit_zero (S := S1x16) r2_zeroOff]
  obtain ⟨e00, e01, e41, e50, e51, e10, e11, e20, e21, e30, e31, e4le⟩ := r2_idx_facts t
  funext j
  obtain ⟨a, b, rfl⟩ : ∃ (a : Fin 10000) (b : Fin 16), j = ix2 a b := ⟨j 0, j 1, eq_ix2 j⟩
  show k2_pay2 (iblk2 V c 0 t) (iblk2 V c 1 t) (iblk2 V c 2 t) (iblk2 V c 3 t) (ix2 a b)
    = r2_Gz (arrAgg V c) (arrBg V c) (arrWo V c) (arrBo V c) (((cfg2.win 5).blk t).view.emb (ix2 a b))
  rw [r2_pay2_apply]
  have h0 : ∀ k : Fin 64, ((cfg2.win 0).blk t).view.emb (ix2 a k)
      = ix2 ((((cfg2.win 5).blk t).view.emb (ix2 a b)) 0 : Fin 100000) k := fun k => by
    funext d; apply Fin.ext
    match d with
    | ⟨0, _⟩ => show win2_0.index t (0 : Fin 2) * 10000 + 1 * a.val = win2_5.index t (0 : Fin 2) * 10000 + 1 * a.val; omega
    | ⟨1, _⟩ => show win2_0.index t (1 : Fin 2) * 64 + 1 * k.val = k.val; omega
  have h1 : ∀ k : Fin 64, ((cfg2.win 1).blk t).view.emb (ix2 (0 : Fin 1) k) = ix2 (0 : Fin 1) k := fun k => by
    funext d; apply Fin.ext
    match d with
    | ⟨0, _⟩ => show win2_1.index t (0 : Fin 2) * 1 + 1 * 0 = 0; omega
    | ⟨1, _⟩ => show win2_1.index t (1 : Fin 2) * 64 + 1 * k.val = k.val; omega
  have h2 : ∀ k : Fin 64, ((cfg2.win 2).blk t).view.emb (ix2 k b)
      = ix2 k ((((cfg2.win 5).blk t).view.emb (ix2 a b)) 1 : Fin 16) := fun k => by
    funext d; apply Fin.ext
    match d with
    | ⟨0, _⟩ => show win2_2.index t (0 : Fin 2) * 64 + 1 * k.val = k.val; omega
    | ⟨1, _⟩ => show win2_2.index t (1 : Fin 2) * 16 + 1 * b.val = win2_5.index t (1 : Fin 2) * 16 + 1 * b.val; omega
  have h3 : ((cfg2.win 3).blk t).view.emb (ix2 (0 : Fin 1) b)
      = ix2 (0 : Fin 1) ((((cfg2.win 5).blk t).view.emb (ix2 a b)) 1 : Fin 16) := by
    funext d; apply Fin.ext
    match d with
    | ⟨0, _⟩ => show win2_3.index t (0 : Fin 2) * 1 + 1 * 0 = 0; omega
    | ⟨1, _⟩ => show win2_3.index t (1 : Fin 2) * 16 + 1 * b.val = win2_5.index t (1 : Fin 2) * 16 + 1 * b.val; omega
  show FloatOps.addf (F := Ideal) (φ := .f32)
      (∑ k : Fin 64, hid (V c main_v45 (((cfg2.win 0).blk t).view.emb (ix2 a k)))
          (V c main_v46 (((cfg2.win 1).blk t).view.emb (ix2 (0 : Fin 1) k)))
        * V c main_arg4 (((cfg2.win 2).blk t).view.emb (ix2 k b)))
      (V c main_v47 (((cfg2.win 3).blk t).view.emb (ix2 (0 : Fin 1) b)))
    = FloatOps.addf (F := Ideal) (φ := .f32)
      (∑ k : Fin 64, hid (V c main_v45 (ix2 ((((cfg2.win 5).blk t).view.emb (ix2 a b)) 0 : Fin 100000) k))
          (V c main_v46 (ix2 (0 : Fin 1) k))
        * V c main_arg4 (ix2 k ((((cfg2.win 5).blk t).view.emb (ix2 a b)) 1 : Fin 16)))
      (V c main_v47 (ix2 (0 : Fin 1) ((((cfg2.win 5).blk t).view.emb (ix2 a b)) 1 : Fin 16)))
  rw [h3]
  refine congrArg₂ (FloatOps.addf (F := Ideal) (φ := .f32)) (Finset.sum_congr rfl fun k _ => ?_) rfl
  rw [h0 k, h1 k, h2 k]
  rfl

/-- An index of the second output is in point `t`'s block iff each coordinate is in the block's range on its axis. -/
theorem r2_mem_blk5 (t : Fin cfg2.N) (i : S100000x16.Idx) :
    i ∈ ((cfg2.win 5).blk t).view.set ↔ ∀ a : Fin 2, win2_5.index t a * S10000x16.size a ≤ (i a).val ∧ (i a).val < win2_5.index t a * S10000x16.size a + S10000x16.size a := by
  show i ∈ ((View.whole main_v48_1).slice (win2_5.rect t)).set ↔ _
  rw [View.set_slice_whole, Rect.mem_set_unit]
  exact Iff.rfl

/-- The ten row blocks cover the second output: row `r` is in the block of the point whose block row is `r / 10000`. -/
theorem r2_cover5 (i : S100000x16.Idx) : ∃ t : Fin cfg2.N, (cfg2.win 5).flush t = true ∧ i ∈ ((cfg2.win 5).blk t).view.set := by
  have hi0 : (i 0).val < 100000 := (i 0).isLt
  have hi1 : (i 1).val < 16 := (i 1).isLt
  obtain ⟨t, -, ht⟩ := r2_idx_onto ⟨(i 0).val / 10000, by omega⟩
  have q0 : win2_5.index t (0 : Fin 2) = (i 0).val / 10000 := ht
  obtain ⟨e00, e01, e41, e50, e51, e10, e11, e20, e21, e30, e31, e4le⟩ := r2_idx_facts t
  refine ⟨t, flush2_5 t, ?_⟩
  rw [r2_mem_blk5]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 16 ≤ (i 1).val ∧ (i 1).val < win2_5.index t (1 : Fin 2) * 16 + 16; omega

/-- The second output after the region is `r2_Gz` of the four operand arrays. -/
theorem r2_zArr_eq (c : Dev nD) : zArr V c = r2_Gz (arrAgg V c) (arrBg V c) (arrWo V c) (arrBo V c) :=
  (dat2 (F := Ideal) V c).arrAt_eq_of_cover 5 (r2_Gz (arrAgg V c) (arrBg V c) (arrWo V c) (arrBo V c))
    (fun t _ => r2_flushed5_eq V c t) r2_cover5

/-- REGION 2, second output: at row `p` and column `q`, the sum over `k` of the hidden entry `(p, k)` times the weight
    `(k, q)`, plus the output bias `[0, q]`. -/
theorem z_final (c : Dev nD) (p : Fin 100000) (q : Fin 16) :
    zArr V c (ix2 p q)
      = FloatOps.addf (F := Ideal) (φ := .f32)
          (∑ k : Fin 64, hid (arrAgg V c (ix2 p k)) (arrBg V c (ix2 (0 : Fin 1) k)) * arrWo V c (ix2 k q))
          (arrBo V c (ix2 (0 : Fin 1) q)) := by
  rw [r2_zArr_eq]

end Cert.KernelIdeal.Hand

end
-- ==== Proof.PadDefs.lean ====
import proofs.«123890_j30983894073976_1_alg».proof.KernelIdeal
import Idealize.ShloMosaic.PureOps.Ideal

noncomputable section

namespace Cert.KernelIdeal.Hand

open Cert.KernelIdeal Cert.KernelIdeal.Facts₀ Cert.KernelIdeal.Facts Idealize.ShloMosaic

variable {F : FTy → Type} [FloatOps F] [Cert.KernelIdeal.Facts]

/-! ## The host operations between the regions, as functions of what they read

The edge list (sources, targets) and the edge weights have 3300000 entries; the program pads each to 3301376 entries
(403 blocks of 8192) with zeros before it gathers, scales and scatters. -/

/-- A list of 3300000 row numbers followed by 1376 zeros. -/
def padI (s : IVec S3300000 32) : IVec S3301376 32 :=
  concatenate S3301376 0 [⟨S3300000, s⟩, ⟨S1376, broadcastInDim S1376 ![] bcast_S_S1376 (constantI S_ 32 0#32)⟩]
    concatenates_S3300000_S1376_S3301376_d0

/-- A list of 3300000 weights followed by 1376 zeros. -/
def padF (x : FVec F S3300000 .f32) : FVec F S3301376 .f32 :=
  concatenate S3301376 0 [⟨S3300000, x⟩, ⟨S1376, broadcastInDim S1376 ![] bcast_S_S1376 (constant (F := F) S_ .f32 0x00000000#32)⟩]
    concatenates_S3300000_S1376_S3301376_d0

/-- Negative row numbers counted from the end: `s < 0 ? s + 100000 : s`, entry by entry. -/
def wrapP (s : IVec S3301376 32) : IVec S3301376 32 :=
  select (cmpi .slt s (broadcastInDim S3301376 ![] bcast_S_S3301376 (constantI S_ 32 0#32)))
    (addi s (broadcastInDim S3301376 ![] bcast_S_S3301376 (constantI S_ 32 100000#32))) s

/-- The rows of the table `xw` at the padded, wrapped source numbers. -/
def xwSrcP (xw : FVec F S100000x64 .f32) (src : IVec S3300000 32) : FVec F S3301376x64 .f32 :=
  Host.gather gather_S100000x64_S3301376x1_S3301376x64_1_0_n_n_0_1_164 xw
    (broadcastInDim S3301376x1 ![0] bcast_S3301376_S3301376x1_0 (wrapP (padI src)))

/-- The padded weights as one column. -/
def normCol (norm : FVec F S3300000 .f32) : FVec F S3301376x1 .f32 :=
  shapeCast S3301376x1 (padF norm) shapeCasts_S3301376_S3301376x1

/-- The messages added into a table of zeros at the (already padded) target numbers. -/
def aggP (dstP : IVec S3301376 32) (msg : FVec F S3301376x64 .f32) : FVec F S100000x64 .f32 :=
  Host.scatterAdd scatter_S100000x64_S3301376x1_S3301376x64_1_0_0_1
    (broadcastInDim S100000x64 ![] bcast_S_S100000x64 (constant (F := F) S_ .f32 0x00000000#32))
    (broadcastInDim S3301376x1 ![0] bcast_S3301376_S3301376x1_0 dstP) msg

end Cert.KernelIdeal.Hand

end
-- ==== Proof.HostK.lean ====
import proofs.«123890_j30983894073976_1_alg».proof.Proof.Gen.KernelIdeal.Frame
import proofs.«123890_j30983894073976_1_alg».proof.Proof.PadDefs
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The second stretch of host operations (between regions 0 and 1), read off what region 0 leaves -/

theorem W3_v40 (c : Dev nD) :
    W3 m ρ c (Proc.devRef .tc main_v40)
      = xwSrcP (F := F) (W2 m ρ c (Proc.devRef .tc main_v27)) (W2 m ρ c (Proc.devRef .tc main_v3)) := by
  show StableHlo.after hostOps1 (W2 m ρ c) (Proc.devRef .tc main_v40) = _
  generalize W2 m ρ c = W
  after_results_simp <;> rfl

theorem W3_v41 (c : Dev nD) :
    W3 m ρ c (Proc.devRef .tc main_v41) = normCol (F := F) (W2 m ρ c (Proc.devRef .tc main_v26)) := by
  show StableHlo.after hostOps1 (W2 m ρ c) (Proc.devRef .tc main_v41) = _
  generalize W2 m ρ c = W
  after_results_simp <;> rfl

theorem W3_v31 (c : Dev nD) :
    W3 m ρ c (Proc.devRef .tc main_v31) = padI (W2 m ρ c (Proc.devRef .tc main_v6)) := by
  show StableHlo.after hostOps1 (W2 m ρ c) (Proc.devRef .tc main_v31) = _
  generalize W2 m ρ c = W
  after_results_simp <;> rfl

/-! ## The third stretch (between regions 1 and 2), read off what region 1 leaves -/

theorem W5_v45 (c : Dev nD) :
    W5 m ρ c (Proc.devRef .tc main_v45)
      = aggP (F := F) (W4 m ρ c (Proc.devRef .tc main_v31)) (W4 m ρ c (Proc.devRef .tc main_v42)) := by
  show StableHlo.after hostOps2 (W4 m ρ c) (Proc.devRef .tc main_v45) = _
  generalize W4 m ρ c = W
  after_results_simp <;> rfl

theorem W5_v46 (c : Dev nD) :
    W5 m ρ c (Proc.devRef .tc main_v46)
      = shapeCast S1x64 (W4 m ρ c (Proc.devRef .tc main_arg3)) shapeCasts_S64_S1x64 := by
  show StableHlo.after hostOps2 (W4 m ρ c) (Proc.devRef .tc main_v46) = _
  generalize W4 m ρ c = W
  after_results_simp <;> rfl

theorem W5_v47 (c : Dev nD) :
    W5 m ρ c (Proc.devRef .tc main_v47)
      = shapeCast S1x16 (W4 m ρ c (Proc.devRef .tc main_arg5)) shapeCasts_S16_S1x16 := by
  show StableHlo.after hostOps2 (W4 m ρ c) (Proc.devRef .tc main_v47) = _
  generalize W4 m ρ c = W
  after_results_simp <;> rfl

end Cert.KernelIdeal.Hand

end
-- ==== Proof.Host0.lean ====
import proofs.«123890_j30983894073976_1_alg».proof.Proof.Gen.KernelIdeal.Frame
import proofs.«123890_j30983894073976_1_alg».proof.Proof.Gen.ReferenceIdeal.Read
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The first stretch of host operations is the reference's own beginning

Before region 0 the program computes the edge sources, the edge targets (each with the self loops appended) and the
edge weights from the edge list exactly as the reference does, operation by operation: the three values are the
reference's stages of the same argument. -/

theorem W1_v3 (c : Dev nD) :
    W1 m ρ c (Proc.devRef .tc main_v3)
      = Cert.ReferenceIdeal.Read.val_main_v3 (F := F) (m ((c : Thread nD τ).loc main_arg1)) := by
  show StableHlo.after hostOps0 (W0 m ρ c) (Proc.devRef .tc main_v3) = _
  have h1 : W0 m ρ c (Proc.devRef .tc main_arg1) = m ((c : Thread nD τ).loc main_arg1) := rfl
  rw [← h1]
  generalize W0 m ρ c = W
  after_results_simp <;> rfl

theorem W1_v6 (c : Dev nD) :
    W1 m ρ c (Proc.devRef .tc main_v6)
      = Cert.ReferenceIdeal.Read.val_main_v6 (F := F) (m ((c : Thread nD τ).loc main_arg1)) := by
  show StableHlo.after hostOps0 (W0 m ρ c) (Proc.devRef .tc main_v6) = _
  have h1 : W0 m ρ c (Proc.devRef .tc main_arg1) = m ((c : Thread nD τ).loc main_arg1) := rfl
  rw [← h1]
  generalize W0 m ρ c = W
  after_results_simp <;> rfl

theorem W1_v26 (c : Dev nD) :
    W1 m ρ c (Proc.devRef .tc main_v26)
      = Cert.ReferenceIdeal.Read.val_main_v26 (F := F) (m ((c : Thread nD τ).loc main_arg1)) := by
  show StableHlo.after hostOps0 (W0 m ρ c) (Proc.devRef .tc main_v26) = _
  have h1 : W0 m ρ c (Proc.devRef .tc main_arg1) = m ((c : Thread nD τ).loc main_arg1) := rfl
  rw [← h1]
  generalize W0 m ρ c = W
  after_results_simp <;> rfl

end Cert.KernelIdeal.Hand

end
-- ==== Proof.Kept.lean ====
import proofs.«123890_j30983894073976_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A stretch of host operations none of which writes the buffer `b` leaves it as it was: each operation's written
    buffer is another one. -/
syntax "host_keeps " ident : tactic
macro_rules
  | `(tactic| host_keeps $ops:ident) => `(tactic|
      exact StableHlo.after_of_forall_not_mem _ _ (List.forall_iff_forall_mem.mp (by
        simp only [$ops:ident, List.flatten_cons, List.flatten_nil, List.append_nil, List.cons_append,
          List.nil_append, List.Forall, StableHlo.nullary_writes, StableHlo.unary_writes, StableHlo.binary_writes,
          StableHlo.ternary_writes, StableHlo.quaternary_writes, StableHlo.reshape_writes, StableHlo.binaryIndexed_writes,
          Finset.mem_singleton]
        repeat' apply And.intro
        all_goals exact StableHlo.devRef_ne_of_ne (by decide))))

/-! ## What each boundary still holds of earlier values

No host operation and no region writes an argument; region 0 writes only its output, so the edge lists and weights
computed before it are still there after it; region 1 writes only its output. -/

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by host_keeps hostOps0
    _ = m ((c : Thread nD τ).loc main_arg0) := rfl

theorem W1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := by host_keeps hostOps0
    _ = m ((c : Thread nD τ).loc main_arg2) := rfl

theorem W2_v3 (c : Dev nD) : W2 m ρ c (Proc.devRef .tc main_v3) = W1 m ρ c (Proc.devRef .tc main_v3) :=
  W2_of_ne m ρ c main_v3 (by decide)
theorem W2_v6 (c : Dev nD) : W2 m ρ c (Proc.devRef .tc main_v6) = W1 m ρ c (Proc.devRef .tc main_v6) :=
  W2_of_ne m ρ c main_v6 (by decide)
theorem W2_v26 (c : Dev nD) : W2 m ρ c (Proc.devRef .tc main_v26) = W1 m ρ c (Proc.devRef .tc main_v26) :=
  W2_of_ne m ρ c main_v26 (by decide)

theorem W4_v31 (c : Dev nD) : W4 m ρ c (Proc.devRef .tc main_v31) = W3 m ρ c (Proc.devRef .tc main_v31) :=
  W4_of_ne m ρ c main_v31 (by decide)

theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by host_keeps hostOps1
    _ = W1 m ρ c (Proc.devRef .tc main_arg3) := W2_of_ne m ρ c main_arg3 (by decide)
    _ = W0 m ρ c (Proc.devRef .tc main_arg3) := by host_keeps hostOps0
    _ = m ((c : Thread nD τ).loc main_arg3) := rfl

theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by host_keeps hostOps1
    _ = W1 m ρ c (Proc.devRef .tc main_arg5) := W2_of_ne m ρ c main_arg5 (by decide)
    _ = W0 m ρ c (Proc.devRef .tc main_arg5) := by host_keeps hostOps0
    _ = m ((c : Thread nD τ).loc main_arg5) := rfl

theorem W5_arg4 (c : Dev nD) : W5 m ρ c (Proc.devRef .tc main_arg4) = m ((c : Thread nD τ).loc main_arg4) :=
  calc W5 m ρ c (Proc.devRef .tc main_arg4)
    _ = W4 m ρ c (Proc.devRef .tc main_arg4) := by host_keeps hostOps2
    _ = W3 m ρ c (Proc.devRef .tc main_arg4) := W4_of_ne m ρ c main_arg4 (by decide)
    _ = W2 m ρ c (Proc.devRef .tc main_arg4) := by host_keeps hostOps1
    _ = W1 m ρ c (Proc.devRef .tc main_arg4) := W2_of_ne m ρ c main_arg4 (by decide)
    _ = W0 m ρ c (Proc.devRef .tc main_arg4) := by host_keeps hostOps0
    _ = m ((c : Thread nD τ).loc main_arg4) := rfl

end Cert.KernelIdeal.Hand

end
-- ==== Proof.LibScatterRows.lean ====
/-
  Rows added into a table at a column of row numbers, read at coordinates; and rows of zeros appended.

  `table.at[idx].add(upd)` for a table of `N` rows and `C` columns, `R` row numbers laid out as an `R × 1`
  column and `R × C` updates is a scatter with update window axis `1`, inserted window axis `0`, the start index
  going to operand axis `0`, the index vector on axis `1`. Update `(e, f)` lands on the table's entry
  `(idx[e, 0], f)` when the row number, read as a signed integer and NOT clamped, is a row of the table, and is
  dropped otherwise. On the extended reals the result at an entry is the table's entry plus the sum of the updates
  landing on it, so two such scatters whose row numbers and updates agree row by row, the longer one's further
  rows of updates being zeros, give the same table: a zero update adds nothing wherever it lands.
-/
import Idealize.ShloMosaic.PureOps.Ideal
import Idealize.ShloMosaic.Lib.ValueIdx

noncomputable section

open scoped BigOperators

namespace Idealize.ShloMosaic.ScatterRows

open Idealize.ShloMosaic Idealize.ShloMosaic.ValueIdx

/-- Those dimension numbers for a table `[N, C]`, row numbers `[R, 1]` and updates `[R, C]`; their conditions
    `wf` are decided on a program's literal shapes. -/
abbrev rowDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Where an update in column `f` whose row number is the word `t` lands: row `t` read signed, if that is a row
    of the table; nowhere otherwise. -/
def land (N C : Nat) {w : Nat} (t : BitVec w) (f : Fin C) : Option (⟨2, ![N, C]⟩ : Shape).Idx :=
  if h : 0 ≤ t.toInt ∧ t.toInt < (N : Int) then some (ix2 (⟨t.toInt.toNat, by omega⟩ : Fin N) f) else none

/-- THE LANDING PLACE of update `(e, f)`: `land` of the row number `idx[e, 0]` and the column `f`. -/
theorem resultIdx_rows {N C R w : Nat}
    (wf : ScatterDims.WF ⟨2, ![N, C]⟩ ⟨2, ![R, 1]⟩ ⟨2, ![R, C]⟩ [1] [0] [0] 1)
    (idx : IVec ⟨2, ![R, 1]⟩ w) (e : Fin R) (f : Fin C) :
    (rowDims N C R wf).resultIdx? (ix2 e f) idx = land N C (idx (ix2 e (0 : Fin 1))) f := by
  have hs0 : (rowDims N C R wf).start (ix2 e f) idx 0 = (idx (ix2 e (0 : Fin 1))).toInt := by
    unfold ScatterDims.start
    rw [dif_pos (show (0 : Fin 2) ∈ (rowDims N C R wf).scatterDimsToOperandDims from List.mem_singleton.mpr rfl)]
    have hsi : (rowDims N C R wf).siIdx (ix2 e f) ⟨List.idxOf (0 : Fin 2) (rowDims N C R wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowDims N C R wf).start (ix2 e f) idx 1 = 0 := by
    unfold ScatterDims.start
    rw [dif_neg (fun h : (1 : Fin 2) ∈ (rowDims N C R wf).scatterDimsToOperandDims =>
      Nat.one_ne_zero (Fin.val_eq_of_eq (List.mem_singleton.mp h)))]
  have hk0 : (0 : Fin 2) ∉ (rowDims N C R wf).sKept := by
    show (0 : Fin 2) ∉ (List.finRange 2).filter (fun a => a ∉ [(0 : Fin 2)])
    decide
  have hk1 : (1 : Fin 2) ∈ (rowDims N C R wf).sKept := by
    show (1 : Fin 2) ∈ (List.finRange 2).filter (fun a => a ∉ [(0 : Fin 2)])
    decide
  have hw0 : (rowDims N C R wf).window (ix2 e f) 0 = 0 := by
    unfold ScatterDims.window
    rw [dif_neg hk0]
  have hw1 : (rowDims N C R wf).window (ix2 e f) 1 = f.val := by
    unfold ScatterDims.window
    rw [dif_pos hk1]
    rfl
  have hf : f.val < C := f.isLt
  unfold ScatterDims.resultIdx? land
  by_cases h : 0 ≤ (idx (ix2 e (0 : Fin 1))).toInt ∧ (idx (ix2 e (0 : Fin 1))).toInt < (N : Int)
  · have hall : ∀ a, 0 ≤ (rowDims N C R wf).start (ix2 e f) idx a + ((rowDims N C R wf).window (ix2 e f) a : Int)
        ∧ (rowDims N C R wf).start (ix2 e f) idx a + ((rowDims N C R wf).window (ix2 e f) a : Int)
          < ((⟨2, ![N, C]⟩ : Shape).size a : Int) := by
      intro a
      match a with
      | ⟨0, _⟩ =>
        show 0 ≤ (rowDims N C R wf).start (ix2 e f) idx 0 + ((rowDims N C R wf).window (ix2 e f) 0 : Int)
          ∧ (rowDims N C R wf).start (ix2 e f) idx 0 + ((rowDims N C R wf).window (ix2 e f) 0 : Int) < (N : Int)
        rw [hs0, hw0]; omega
      | ⟨1, _⟩ =>
        show 0 ≤ (rowDims N C R wf).start (ix2 e f) idx 1 + ((rowDims N C R wf).window (ix2 e f) 1 : Int)
          ∧ (rowDims N C R wf).start (ix2 e f) idx 1 + ((rowDims N C R wf).window (ix2 e f) 1 : Int) < (C : Int)
        rw [hs1, hw1]; omega
    rw [dif_pos hall, dif_pos h]
    congr 1
    funext a
    refine Fin.ext ?_
    match a with
    | ⟨0, _⟩ =>
      show ((rowDims N C R wf).start (ix2 e f) idx 0 + ((rowDims N C R wf).window (ix2 e f) 0 : Int)).toNat
        = (idx (ix2 e (0 : Fin 1))).toInt.toNat
      rw [hs0, hw0]; simp
    | ⟨1, _⟩ =>
      show ((rowDims N C R wf).start (ix2 e f) idx 1 + ((rowDims N C R wf).window (ix2 e f) 1 : Int)).toNat = f.val
      rw [hs1, hw1]; simp
  · rw [dif_neg (fun hall => h (by
      have h0 := hall 0
      have e0 : ((⟨2, ![N, C]⟩ : Shape).size 0 : Int) = (N : Int) := rfl
      rw [hs0, hw0, e0] at h0
      omega)), dif_neg h]

/-- Sums over the updates landing on one place, for two families of updates the second of which extends the first
    (through `emb`) by updates that are all `0`: the two sums agree. -/
theorem sum_landing_extend {U UP T M : Type} [Fintype U] [Fintype UP] [DecidableEq UP] [AddCommMonoid M]
    (emb : U ↪ UP) (f : U → Option T) (fP : UP → Option T) (g : U → M) (gP : UP → M)
    (hf : ∀ u, fP (emb u) = f u) (hg : ∀ u, gP (emb u) = g u) (h0 : ∀ v, (∀ u, emb u ≠ v) → gP v = 0) (i : T)
    [DecidablePred fun v => fP v = some i] [DecidablePred fun u => f u = some i] :
    ∑ v ∈ Finset.univ.filter (fun v => fP v = some i), gP v
      = ∑ u ∈ Finset.univ.filter (fun u => f u = some i), g u := by
  have hmap : ∑ u ∈ Finset.univ.filter (fun u => f u = some i), g u
      = ∑ v ∈ (Finset.univ.filter (fun u => f u = some i)).map emb, gP v := by
    rw [Finset.sum_map]
    exact Finset.sum_congr rfl fun u _ => (hg u).symm
  rw [hmap]
  symm
  refine Finset.sum_subset ?_ ?_
  · intro v hv
    obtain ⟨u, hu, rfl⟩ := Finset.mem_map.mp hv
    exact Finset.mem_filter.mpr ⟨Finset.mem_univ _, (hf u).trans (Finset.mem_filter.mp hu).2⟩
  · intro v hv hnv
    refine h0 v fun u hu => hnv ?_
    subst hu
    exact Finset.mem_map.mpr ⟨u, Finset.mem_filter.mpr ⟨Finset.mem_univ _,
      (hf u).symm.trans (Finset.mem_filter.mp hv).2⟩, rfl⟩

/-- The first `R` of `R'` rows, entry by entry. -/
def firstRows {R R' C : Nat} (hRR : R ≤ R') : (⟨2, ![R, C]⟩ : Shape).Idx ↪ (⟨2, ![R', C]⟩ : Shape).Idx where
  toFun u := ix2 (Fin.castLE hRR (u 0)) (u 1)
  inj' u v h := by
    obtain ⟨e, f, rfl⟩ : ∃ (e : Fin R) (f : Fin C), u = ix2 e f := ⟨u 0, u 1, eq_ix2 u⟩
    obtain ⟨e', f', rfl⟩ : ∃ (e' : Fin R) (f' : Fin C), v = ix2 e' f' := ⟨v 0, v 1, eq_ix2 v⟩
    have h0 : (Fin.castLE hRR e).val = (Fin.castLE hRR e').val := congrArg (fun t => (t 0).val) h
    have h1 : f.val = f'.val := congrArg (fun t => (t 1).val) h
    have he : e = e' := Fin.ext h0
    have hf : f = f' := Fin.ext h1
    rw [he, hf]

theorem firstRows_ix2 {R R' C : Nat} (hRR : R ≤ R') (e : Fin R) (f : Fin C) :
    firstRows (C := C) hRR (ix2 e f) = ix2 (Fin.castLE hRR e) f := rfl

/-- ROWS OF ZEROS APPENDED: a scatter-add of `R'` rows whose first `R` row numbers and rows of updates are those of
    a scatter-add of `R` rows into the same table, and whose further rows of updates are all `0`, gives the same
    table on the extended reals. -/
theorem scatterAdd_rows_extend {N C R R' w : Nat} (hRR : R ≤ R')
    (wf : ScatterDims.WF ⟨2, ![N, C]⟩ ⟨2, ![R, 1]⟩ ⟨2, ![R, C]⟩ [1] [0] [0] 1)
    (wf' : ScatterDims.WF ⟨2, ![N, C]⟩ ⟨2, ![R', 1]⟩ ⟨2, ![R', C]⟩ [1] [0] [0] 1)
    (x : FVec Ideal ⟨2, ![N, C]⟩ .f32)
    (idx : IVec ⟨2, ![R, 1]⟩ w) (idx' : IVec ⟨2, ![R', 1]⟩ w)
    (upd : FVec Ideal ⟨2, ![R, C]⟩ .f32) (upd' : FVec Ideal ⟨2, ![R', C]⟩ .f32)
    (hidx : ∀ e : Fin R, idx' (ix2 (Fin.castLE hRR e) (0 : Fin 1)) = idx (ix2 e (0 : Fin 1)))
    (hupd : ∀ (e : Fin R) (f : Fin C), upd' (ix2 (Fin.castLE hRR e) f) = upd (ix2 e f))
    (hzero : ∀ (e' : Fin R') (f : Fin C), R ≤ e'.val → upd' (ix2 e' f) = 0) :
    Host.scatterAdd (rowDims N C R' wf') x idx' upd' = Host.scatterAdd (rowDims N C R wf) x idx upd := by
  funext i
  show x i + _ = x i + _
  congr 1
  refine sum_landing_extend (firstRows hRR) (fun u => (rowDims N C R wf).resultIdx? u idx)
    (fun v => (rowDims N C R' wf').resultIdx? v idx') upd upd' ?_ ?_ ?_ i
  · intro u
    obtain ⟨e, f, rfl⟩ : ∃ (e : Fin R) (f : Fin C), u = ix2 e f := ⟨u 0, u 1, eq_ix2 u⟩
    show (rowDims N C R' wf').resultIdx? (ix2 (Fin.castLE hRR e) f) idx' = _
    rw [resultIdx_rows, resultIdx_rows, hidx]
  · intro u
    obtain ⟨e, f, rfl⟩ : ∃ (e : Fin R) (f : Fin C), u = ix2 e f := ⟨u 0, u 1, eq_ix2 u⟩
    exact hupd e f
  · intro v hv
    obtain ⟨e', f, rfl⟩ : ∃ (e' : Fin R') (f : Fin C), v = ix2 e' f := ⟨v 0, v 1, eq_ix2 v⟩
    refine hzero e' f ?_
    by_contra hlt
    have hlt' : e'.val < R := Nat.lt_of_not_le hlt
    exact hv (ix2 ⟨e'.val, hlt'⟩ f) rfl

end Idealize.ShloMosaic.ScatterRows

end
-- ==== Proof.LibRowGather.lean ====
/-
  Rows of a table taken by a column of row numbers, read at coordinates.

  `table[idx]` for a table of `N` rows and `C` columns and a vector of `R` row numbers is a gather with the
  numbers laid out as an `R × 1` column: offset axis `1`, collapsed axis `0`, start index map `[0]`, index vector
  axis `1`, slices of `1 × C`. Entry `(e, f)` of the result is the table at row `idx[e, 0]` — read as a signed
  integer and clamped into `[0, N − 1]`, as every start index of a gather is — and column `f`.
-/
import Idealize.ShloMosaic.Lib.ValueIdx

noncomputable section

namespace Idealize.ShloMosaic.RowGather

open Idealize.ShloMosaic Idealize.ShloMosaic.ValueIdx

variable {α : Type}

/-- Those dimension numbers for a table `[N, C]`, row numbers `[R, 1]` and a result `[R, C]`; their conditions
    `wf` are decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: the table at the row number `idx[e, 0]`, read signed and clamped into
    `[0, N − 1]`, and at column `f`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (f : Fin C) :
    Host.gather (rowDims N C R wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ =>
    show (rowDims N C R wf).start (ix2 e f) idx 0 + (rowDims N C R wf).batchCoord (ix2 e f) 0
      + (rowDims N C R wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 e f) ⟨List.idxOf (0 : Fin 2) (rowDims N C R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C R wf).start (ix2 e f) idx 1 + (rowDims N C R wf).batchCoord (ix2 e f) 1
      + (rowDims N C R wf).offCoord (ix2 e f) 1 = f.val
    rw [GatherDims.batchCoord_eq_zero _ _ _ List.not_mem_nil]
    unfold GatherDims.start
    rw [dif_neg (fun h : (1 : Fin 2) ∈ (rowDims N C R wf).startIndexMap =>
      Nat.one_ne_zero (Fin.val_eq_of_eq (List.mem_singleton.mp h)))]
    simp only [Nat.add_zero, Nat.zero_add]
    rfl

end Idealize.ShloMosaic.RowGather

end
-- ==== Proof.Pad.lean ====
import proofs.«123890_j30983894073976_1_alg».proof.Proof.PadDefs
import proofs.«123890_j30983894073976_1_alg».proof.Proof.Gen.ReferenceIdeal.Read
import proofs.«123890_j30983894073976_1_alg».proof.Proof.LibScatterRows
import proofs.«123890_j30983894073976_1_alg».proof.Proof.LibRowGather
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.ValueIdx

variable [Cert.KernelIdeal.Facts] [Cert.ReferenceIdeal.Facts]

/-! ## The padded lists at an entry -/

/-- The 3300000 edges are among the 3301376 padded ones. -/
theorem edges_le : 3300000 ≤ 3301376 := by decide

/-- A padded list of row numbers, at one of the first 3300000 entries, is the list. -/
theorem padI_low (s : IVec Cert.KernelIdeal.S3300000 32) (e : Fin 3300000) :
    padI s (ix1 (Fin.castLE edges_le e)) = s (ix1 e) := by
  unfold padI
  exact concatenate_pair_apply_left 0 s _ _ (ix1 (Fin.castLE edges_le e)) rfl (ix1 e)
    (fun b => match b with | ⟨0, _⟩ => rfl)

/-- A padded list of weights, at one of the first 3300000 entries, is the list. -/
theorem padF_low {F : FTy → Type} [FloatOps F] (x : FVec F Cert.KernelIdeal.S3300000 .f32) (e : Fin 3300000) :
    padF x (ix1 (Fin.castLE edges_le e)) = x (ix1 e) := by
  unfold padF
  exact concatenate_pair_apply_left 0 x _ _ (ix1 (Fin.castLE edges_le e)) rfl (ix1 e)
    (fun b => match b with | ⟨0, _⟩ => rfl)

/-- A padded list of weights, at an entry past the first 3300000, is the weight zero. -/
theorem padF_high (x : FVec Ideal Cert.KernelIdeal.S3300000 .f32) (r : Fin 3301376) (h : 3300000 ≤ r.val) :
    padF x (ix1 r) = 0 := by
  unfold padF
  rw [concatenate_pair_apply_right (t := Cert.KernelIdeal.S3301376) (s₁ := Cert.KernelIdeal.S3300000)
    (s₂ := Cert.KernelIdeal.S1376) 0 x _ _ (ix1 r) rfl rfl (ix1 (⟨r.val - 3300000, by omega⟩ : Fin 1376))
    (fun b => match b with | ⟨0, _⟩ => fun hb => (hb rfl).elim)
    (by show r.val - 3300000 + 3300000 = r.val; omega)]
  show FloatOps.ofBits (F := Ideal) .f32 0x00000000#32 = 0
  rw [Ideal.ofBits_def, Ideal.ofBits_zero_f32]

/-- The wrap (a negative row number counts from the end: 100000 is added to it) at an entry. -/
theorem wrapP_apply (s : IVec Cert.KernelIdeal.S3301376 32) (i : Cert.KernelIdeal.S3301376.Idx) :
    wrapP s i = Scalar.select (IntOp.cmpi .slt (s i) 0#32) (IntOp.addi (s i) 100000#32) (s i) := rfl

/-- The column of padded weights at row r is the padded weight r. -/
theorem normCol_apply {F : FTy → Type} [FloatOps F] (norm : FVec F Cert.KernelIdeal.S3300000 .f32) (r : Fin 3301376) :
    normCol norm (ix2 r (0 : Fin 1)) = padF norm (ix1 r) := by
  unfold normCol
  exact shapeCast_apply (padF norm) Cert.KernelIdeal.Facts₀.shapeCasts_S3301376_S3301376x1 (ix2 r (0 : Fin 1)) (ix1 r)
    (by rw [Shape.rowMajor_val_two, Shape.rowMajor_val_one]; show r.val = r.val * 1 + 0; omega)

/-! ## The two programs' row numbers and weights, entry by entry -/

open Cert.ReferenceIdeal.Read in
/-- The reference's wrapped source numbers at an entry: the same wrap of its source list. -/
theorem ref_wrap_apply (x1 : IVec Cert.ReferenceIdeal.S2x3200000 32) (i : Cert.ReferenceIdeal.S3300000.Idx) :
    val_main_v32 (F := Ideal) x1 i
      = Scalar.select (IntOp.cmpi .slt (val_main_v3 (F := Ideal) x1 i) 0#32)
          (IntOp.addi (val_main_v3 (F := Ideal) x1 i) 100000#32) (val_main_v3 (F := Ideal) x1 i) := by
  rw [val_main_v32_apply, val_main_v29_apply, val_main_v31_apply, val_main_v28_apply, val_main_v30_apply,
    val_main_c_4_apply, val_main_c_5_apply]

open Cert.ReferenceIdeal.Read in
/-- SOURCES: the padded, wrapped source column at one of the first 3300000 rows is the reference's source column. -/
theorem src_col_low (x1 : IVec Cert.ReferenceIdeal.S2x3200000 32) (e : Fin 3300000) :
    broadcastInDim Cert.KernelIdeal.S3301376x1 ![0] Cert.KernelIdeal.Facts₀.bcast_S3301376_S3301376x1_0
        (wrapP (padI (val_main_v3 (F := Ideal) x1))) (ix2 (Fin.castLE edges_le e) (0 : Fin 1))
      = val_main_v33 (F := Ideal) x1 (ix2 e (0 : Fin 1)) := by
  rw [val_main_v33_apply]
  have hi : idx_main_v33 (ix2 e (0 : Fin 1)) = ix1 e := funext fun a => match a with | ⟨0, _⟩ => rfl
  rw [hi, ref_wrap_apply]
  generalize val_main_v3 (F := Ideal) x1 = src
  rw [broadcastInDim_apply _ Cert.KernelIdeal.Facts₀.bcast_S3301376_S3301376x1_0 (wrapP (padI src))
    (ix2 (Fin.castLE edges_le e) (0 : Fin 1)) (ix1 (Fin.castLE edges_le e)) (fun a => match a with
      | ⟨0, _⟩ => by
        show (Fin.castLE edges_le e).val = if (3301376 : Nat) = 1 then 0 else (Fin.castLE edges_le e).val
        rw [if_neg (by decide)])]
  rw [wrapP_apply, padI_low]

open Cert.ReferenceIdeal.Read in
/-- TARGETS: the padded target column at one of the first 3300000 rows is the reference's target column. -/
theorem dst_col_low (x1 : IVec Cert.ReferenceIdeal.S2x3200000 32) (e : Fin 3300000) :
    broadcastInDim Cert.KernelIdeal.S3301376x1 ![0] Cert.KernelIdeal.Facts₀.bcast_S3301376_S3301376x1_0
        (padI (val_main_v6 (F := Ideal) x1)) (ix2 (Fin.castLE edges_le e) (0 : Fin 1))
      = val_main_v39 (F := Ideal) x1 (ix2 e (0 : Fin 1)) := by
  rw [val_main_v39_apply]
  have hi : idx_main_v39 (ix2 e (0 : Fin 1)) = ix1 e := funext fun a => match a with | ⟨0, _⟩ => rfl
  rw [hi]
  generalize val_main_v6 (F := Ideal) x1 = dst
  rw [broadcastInDim_apply _ Cert.KernelIdeal.Facts₀.bcast_S3301376_S3301376x1_0 (padI dst)
    (ix2 (Fin.castLE edges_le e) (0 : Fin 1)) (ix1 (Fin.castLE edges_le e)) (fun a => match a with
      | ⟨0, _⟩ => by
        show (Fin.castLE edges_le e).val = if (3301376 : Nat) = 1 then 0 else (Fin.castLE edges_le e).val
        rw [if_neg (by decide)])]
  rw [padI_low]

open Cert.ReferenceIdeal.Read in
/-- WEIGHTS: the column of padded weights at one of the first 3300000 rows is the reference's weight of that row,
    which it repeats along its 64 columns. -/
theorem norm_col_low (x1 : IVec Cert.ReferenceIdeal.S2x3200000 32) (e : Fin 3300000) (f : Fin 64) :
    normCol (F := Ideal) (val_main_v26 (F := Ideal) x1) (ix2 (Fin.castLE edges_le e) (0 : Fin 1))
      = val_main_v36 (F := Ideal) x1 (ix2 e f) := by
  rw [val_main_v36_apply, val_main_v35_apply]
  have hi : idx_main_v35 (idx_main_v36 (ix2 e f)) = ix1 e := funext fun a => match a with | ⟨0, _⟩ => rfl
  rw [hi]
  generalize val_main_v26 (F := Ideal) x1 = norm
  rw [normCol_apply, padF_low]

/-- Two row gathers from one table whose row numbers agree at a row give the same row. -/
theorem gather_rows_congr {R R' : Nat}
    (wf : GatherDims.WF ⟨2, ![100000, 64]⟩ ⟨2, ![R, 1]⟩ ⟨2, ![R, 64]⟩ [1] [0] [] [0] [] 1 ![1, 64])
    (wf' : GatherDims.WF ⟨2, ![100000, 64]⟩ ⟨2, ![R', 1]⟩ ⟨2, ![R', 64]⟩ [1] [0] [] [0] [] 1 ![1, 64])
    (xw : FVec Ideal ⟨2, ![100000, 64]⟩ .f32) (idx : IVec ⟨2, ![R, 1]⟩ 32) (idx' : IVec ⟨2, ![R', 1]⟩ 32)
    (e : Fin R) (e' : Fin R') (f : Fin 64) (h : idx' (ix2 e' (0 : Fin 1)) = idx (ix2 e (0 : Fin 1))) :
    Host.gather (RowGather.rowDims 100000 64 R' wf') xw idx' (ix2 e' f)
      = Host.gather (RowGather.rowDims 100000 64 R wf) xw idx (ix2 e f) := by
  rw [RowGather.gather_rows_apply (by decide), RowGather.gather_rows_apply (by decide)]
  simp only [h]

open Cert.ReferenceIdeal.Read in
/-- ROWS: the rows gathered at the padded, wrapped sources, at one of the first 3300000 rows, are the reference's. -/
theorem xw_rows_low (x0 : FVec Ideal Cert.ReferenceIdeal.S100000x128 .f32) (x1 : IVec Cert.ReferenceIdeal.S2x3200000 32)
    (x2 : FVec Ideal Cert.ReferenceIdeal.S128x64 .f32) (e : Fin 3300000) (f : Fin 64) :
    xwSrcP (F := Ideal) (val_main_v27 (F := Ideal) x0 x2) (val_main_v3 (F := Ideal) x1) (ix2 (Fin.castLE edges_le e) f)
      = val_main_v34 (F := Ideal) x0 x1 x2 (ix2 e f) := by
  unfold xwSrcP val_main_v34
  have hw := src_col_low x1 e
  generalize val_main_v27 (F := Ideal) x0 x2 = xw
  generalize val_main_v33 (F := Ideal) x1 = idxR at hw ⊢
  generalize val_main_v3 (F := Ideal) x1 = src at hw ⊢
  exact gather_rows_congr
    Cert.ReferenceIdeal.Facts₀.gather_S100000x64_S3300000x1_S3300000x64_1_0_n_n_0_1_164_wf
    Cert.KernelIdeal.Facts₀.gather_S100000x64_S3301376x1_S3301376x64_1_0_n_n_0_1_164_wf
    xw idxR _ e (Fin.castLE edges_le e) f hw

/-! ## The padding adds nothing -/

/-- THE PADDING ADDS NOTHING. The program pads the 3300000 edges to 3301376 with source 0, target 0 and weight 0, gathers the
    rows of `xw` at the (wrapped) padded sources, scales row `r` by the padded weight `r` and adds the rows into a table of zeros
    at the padded targets. Whatever array `msg` holds those scaled rows, the table is the reference's: its first 3300000
    rows of updates and their targets are the reference's, and each further row is a row of `xw` times the weight `0`. -/
theorem agg_pad (x0 : FVec Ideal Cert.ReferenceIdeal.S100000x128 .f32) (x1 : IVec Cert.ReferenceIdeal.S2x3200000 32)
    (x2 : FVec Ideal Cert.ReferenceIdeal.S128x64 .f32) (msg : FVec Ideal Cert.KernelIdeal.S3301376x64 .f32)
    (hmsg : ∀ (r : Fin 3301376) (q : Fin 64), msg (ix2 r q)
        = FloatOps.mulf (F := Ideal) (φ := .f32)
            (xwSrcP (F := Ideal) (Cert.ReferenceIdeal.Read.val_main_v27 (F := Ideal) x0 x2)
              (Cert.ReferenceIdeal.Read.val_main_v3 (F := Ideal) x1) (ix2 r q))
            (normCol (F := Ideal) (Cert.ReferenceIdeal.Read.val_main_v26 (F := Ideal) x1) (ix2 r (0 : Fin 1)))) :
    aggP (F := Ideal) (padI (Cert.ReferenceIdeal.Read.val_main_v6 (F := Ideal) x1)) msg
      = Cert.ReferenceIdeal.Read.val_main_v40 (F := Ideal) x0 x1 x2 := by
  unfold aggP Cert.ReferenceIdeal.Read.val_main_v40
  refine ScatterRows.scatterAdd_rows_extend (N := 100000) (C := 64) (R := 3300000) (R' := 3301376) edges_le
    Cert.ReferenceIdeal.Facts₀.scatter_S100000x64_S3300000x1_S3300000x64_1_0_0_1_wf
    Cert.KernelIdeal.Facts₀.scatter_S100000x64_S3301376x1_S3301376x64_1_0_0_1_wf
    _ (Cert.ReferenceIdeal.Read.val_main_v39 (F := Ideal) x1) _
    (Cert.ReferenceIdeal.Read.val_main_v37 (F := Ideal) x0 x1 x2) msg ?_ ?_ ?_
  · exact fun e => dst_col_low x1 e
  · intro e f
    rw [hmsg, Cert.ReferenceIdeal.Read.val_main_v37_apply, xw_rows_low, norm_col_low x1 e f]
  · intro r f h
    rw [hmsg, normCol_apply, padF_high _ r h, Ideal.mulf_def, mul_zero]

end Cert.KernelIdeal.Hand

end
-- ==== Proof.RefReads.lean ====
import proofs.«123890_j30983894073976_1_alg».proof.Proof.Gen.ReferenceIdeal.Read
import proofs.«123890_j30983894073976_1_alg».proof.Proof.LibMatrixReads
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.Hand

open Cert.ReferenceIdeal Cert.ReferenceIdeal.Read Idealize.ShloMosaic Idealize.ShloMosaic.ValueIdx

variable [Cert.ReferenceIdeal.Facts]

/-- The hidden layer's entry from the aggregate `a` and the bias `b`: `max (a + b) 0`, in the printed scalar operations. -/
abbrev hid (a b : EReal) : EReal :=
  FloatOps.maximumf (F := Ideal) (φ := .f32) (FloatOps.addf (F := Ideal) (φ := .f32) a b) (FloatOps.ofBits (F := Ideal) .f32 0x00000000#32)

/-- The reference's dense transform at row `p`, column `q`. -/
theorem ref_xw (x0 : FVec Ideal S100000x128 .f32) (x2 : FVec Ideal S128x64 .f32) (p : Fin 100000) (q : Fin 64) :
    val_main_v27 (F := Ideal) x0 x2 (ix2 p q) = ∑ k : Fin 128, x0 (ix2 p k) * x2 (ix2 k q) := by
  rw [val_main_v27_apply]
  refine Finset.sum_congr rfl fun k _ => ?_
  -- the left operand is read at row `p`, column `k`; the right at row `k`, column `q`
  have el : lidx_main_v27 (ix2 p q) k = ix2 p k := funext fun a => Fin.ext (by
    match a with
    | ⟨0, _⟩ => rfl
    | ⟨1, _⟩ => rfl)
  have er : ridx_main_v27 (ix2 p q) k = ix2 k q := funext fun a => Fin.ext (by
    match a with
    | ⟨0, _⟩ => rfl
    | ⟨1, _⟩ => rfl)
  rw [el, er]

/-- The reference's first result at row `p`, column `q`: `max (agg[p, q] + b[q]) 0`. -/
theorem ref_h (x0 : FVec Ideal S100000x128 .f32) (x1 : IVec S2x3200000 32) (x2 : FVec Ideal S128x64 .f32) (x3 : FVec Ideal S64 .f32)
    (p : Fin 100000) (q : Fin 64) :
    val_main_v44 (F := Ideal) x0 x1 x2 x3 (ix2 p q) = hid (val_main_v40 (F := Ideal) x0 x1 x2 (ix2 p q)) (x3 (ix1 q)) := by
  rw [val_main_v44_apply, val_main_v43_apply, val_main_v42_apply, val_main_v41_apply, val_main_call0_v0_apply,
    val_main_call0_cst_apply]
  -- the bias, laid out as one row and repeated down the rows, is read at column `q`
  have eb : idx_main_v41 (idx_main_v42 (ix2 p q)) = ix1 q := funext fun a => Fin.ext (by
    match a with
    | ⟨0, _⟩ => rfl)
  rw [eb]

/-- The reference's second result at row `p`, column `q`: the hidden row `p` times column `q` of the weights, plus the bias. -/
theorem ref_z (x0 : FVec Ideal S100000x128 .f32) (x1 : IVec S2x3200000 32) (x2 : FVec Ideal S128x64 .f32) (x3 : FVec Ideal S64 .f32)
    (x4 : FVec Ideal S64x16 .f32) (x5 : FVec Ideal S16 .f32) (p : Fin 100000) (q : Fin 16) :
    val_main_v48 (F := Ideal) x0 x1 x2 x3 x4 x5 (ix2 p q)
      = FloatOps.addf (F := Ideal) (φ := .f32)
          (∑ k : Fin 64, val_main_v44 (F := Ideal) x0 x1 x2 x3 (ix2 p k) * x4 (ix2 k q)) (x5 (ix1 q)) := by
  rw [val_main_v48_apply, val_main_v45_apply, val_main_v47_apply, val_main_v46_apply]
  -- the bias, laid out as one row and repeated down the rows, is read at column `q`
  have eb : idx_main_v46 (idx_main_v47 (ix2 p q)) = ix1 q := funext fun a => Fin.ext (by
    match a with
    | ⟨0, _⟩ => rfl)
  -- the hidden layer is read at row `p`, column `k`; the weights at row `k`, column `q`
  have es : (∑ k : Fin 64, val_main_v44 (F := Ideal) x0 x1 x2 x3 (lidx_main_v45 (ix2 p q) k) * x4 (ridx_main_v45 (ix2 p q) k))
      = ∑ k : Fin 64, val_main_v44 (F := Ideal) x0 x1 x2 x3 (ix2 p k) * x4 (ix2 k q) := by
    refine Finset.sum_congr rfl fun k _ => ?_
    have el : lidx_main_v45 (ix2 p q) k = ix2 p k := funext fun a => Fin.ext (by
      match a with
      | ⟨0, _⟩ => rfl
      | ⟨1, _⟩ => rfl)
    have er : ridx_main_v45 (ix2 p q) k = ix2 k q := funext fun a => Fin.ext (by
      match a with
      | ⟨0, _⟩ => rfl
      | ⟨1, _⟩ => rfl)
    rw [el, er]
  rw [eb, es]

end Cert.ReferenceIdeal.Hand

end
-- ==== Proof.Bridge.lean ====
import proofs.«123890_j30983894073976_1_alg».proof.Proof.Gen.KernelIdeal.Frame
import proofs.«123890_j30983894073976_1_alg».proof.Proof.Gen.ReferenceIdeal.Read
import proofs.«123890_j30983894073976_1_alg».proof.Proof.Region0
import proofs.«123890_j30983894073976_1_alg».proof.Proof.Region1
import proofs.«123890_j30983894073976_1_alg».proof.Proof.Region2
import proofs.«123890_j30983894073976_1_alg».proof.Proof.HostK
import proofs.«123890_j30983894073976_1_alg».proof.Proof.Host0
import proofs.«123890_j30983894073976_1_alg».proof.Proof.Kept
import proofs.«123890_j30983894073976_1_alg».proof.Proof.Pad
import proofs.«123890_j30983894073976_1_alg».proof.Proof.RefReads
import proofs.«123890_j30983894073976_1_alg».proof.Proof.LibMatrixReads

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The program's values, boundary by boundary, are the reference's stages

`x`, the edge list, `W_gcn`, `b_gcn`, `W_out`, `b_out` as launched, at their literal types. -/

abbrev a0 (c : Dev nD) : FVec Ideal Cert.ReferenceIdeal.S100000x128 .f32 := m ((c : Thread nD τ).loc main_arg0)
abbrev a1 (c : Dev nD) : IVec Cert.ReferenceIdeal.S2x3200000 32 := m ((c : Thread nD τ).loc main_arg1)
abbrev a2 (c : Dev nD) : FVec Ideal Cert.ReferenceIdeal.S128x64 .f32 := m ((c : Thread nD τ).loc main_arg2)
abbrev a3 (c : Dev nD) : FVec Ideal Cert.ReferenceIdeal.S64 .f32 := m ((c : Thread nD τ).loc main_arg3)
abbrev a4 (c : Dev nD) : FVec Ideal Cert.ReferenceIdeal.S64x16 .f32 := m ((c : Thread nD τ).loc main_arg4)
abbrev a5 (c : Dev nD) : FVec Ideal Cert.ReferenceIdeal.S16 .f32 := m ((c : Thread nD τ).loc main_arg5)

/-- The arrays the regions leave, at their literal types. -/
abbrev k27 (c : Dev nD) : S100000x64.Idx → EReal := W2 m ρ c (Proc.devRef .tc main_v27)
abbrev k42 (c : Dev nD) : S3301376x64.Idx → EReal := W4 m ρ c (Proc.devRef .tc main_v42)
abbrev k45 (c : Dev nD) : S100000x64.Idx → EReal := W5 m ρ c (Proc.devRef .tc main_v45)
abbrev kH (c : Dev nD) : S100000x64.Idx → EReal := W6 m ρ c (Proc.devRef .tc main_v48_0)
abbrev kZ (c : Dev nD) : S100000x16.Idx → EReal := W6 m ρ c (Proc.devRef .tc main_v48_1)

/-- After region 0 its output is the reference's dense transform `x @ W_gcn`: the same sum of 128 products at every entry. -/
theorem k27_eq (c : Dev nD) :
    k27 m ρ c = Cert.ReferenceIdeal.Read.val_main_v27 (F := Ideal) (a0 m c) (a2 m c) := by
  have hA : k27 m ρ c = xwArr (V1 m ρ) c := W2_arr m ρ c 2
  rw [hA]
  funext i
  obtain ⟨p, q, rfl⟩ : ∃ (p : Fin 100000) (q : Fin 64), i = ix2 p q := ⟨i 0, i 1, eq_ix2 i⟩
  rw [xw_final (V1 m ρ) c p q, Cert.ReferenceIdeal.Hand.ref_xw]
  have e0 : arrX (V1 m ρ) c = a0 m c := W1_arg0 m ρ c
  have e2 : arrWg (V1 m ρ) c = a2 m c := W1_arg2 m ρ c
  rw [e0, e2]

/-- After region 1 its output holds, row by row, the gathered row of `xw` times the padded weight of the row. -/
theorem k42_apply (c : Dev nD) (r : Fin 3301376) (q : Fin 64) :
    k42 m ρ c (ix2 r q)
      = FloatOps.mulf (F := Ideal) (φ := .f32)
          (xwSrcP (F := Ideal) (Cert.ReferenceIdeal.Read.val_main_v27 (F := Ideal) (a0 m c) (a2 m c))
            (Cert.ReferenceIdeal.Read.val_main_v3 (F := Ideal) (a1 m c)) (ix2 r q))
          (normCol (F := Ideal) (Cert.ReferenceIdeal.Read.val_main_v26 (F := Ideal) (a1 m c)) (ix2 r (0 : Fin 1))) := by
  have hA : k42 m ρ c = msgArr (V3 m ρ) c := W4_arr m ρ c 2
  rw [hA, msg_final (V3 m ρ) c r q]
  have e40 : arr40 (V3 m ρ) c = xwSrcP (F := Ideal) (Cert.ReferenceIdeal.Read.val_main_v27 (F := Ideal) (a0 m c) (a2 m c))
      (Cert.ReferenceIdeal.Read.val_main_v3 (F := Ideal) (a1 m c)) := by
    show W3 m ρ c (Proc.devRef .tc main_v40) = _
    rw [W3_v40, W2_v3, W1_v3]
    exact congrArg (fun t => xwSrcP (F := Ideal) t (Cert.ReferenceIdeal.Read.val_main_v3 (F := Ideal) (a1 m c))) (k27_eq m ρ c)
  have e41 : arr41 (V3 m ρ) c = normCol (F := Ideal) (Cert.ReferenceIdeal.Read.val_main_v26 (F := Ideal) (a1 m c)) := by
    show W3 m ρ c (Proc.devRef .tc main_v41) = _
    rw [W3_v41, W2_v26, W1_v26]
  rw [e40, e41]

/-- Before region 2 the aggregate is the reference's: the padding rows add nothing. -/
theorem k45_eq (c : Dev nD) :
    k45 m ρ c = Cert.ReferenceIdeal.Read.val_main_v40 (F := Ideal) (a0 m c) (a1 m c) (a2 m c) := by
  show W5 m ρ c (Proc.devRef .tc main_v45) = _
  rw [W5_v45, W4_v31, W3_v31, W2_v6, W1_v6]
  exact agg_pad (a0 m c) (a1 m c) (a2 m c) (k42 m ρ c) (k42_apply m ρ c)

/-- The bias row region 2 reads is `b_gcn` laid out as one row. -/
theorem bg_row (c : Dev nD) (q : Fin 64) : arrBg (V5 m ρ) c (ix2 (0 : Fin 1) q) = a3 m c (ix1 q) := by
  show (W5 m ρ c (Proc.devRef .tc main_v46) : S1x64.Idx → EReal) (ix2 (0 : Fin 1) q) = _
  rw [W5_v46, W4_arg3]
  exact Idealize.ShloMosaic.MatrixReads.rowOfVec_apply 64 _ _ q

/-- The output bias row region 2 reads is `b_out` laid out as one row. -/
theorem bo_row (c : Dev nD) (q : Fin 16) : arrBo (V5 m ρ) c (ix2 (0 : Fin 1) q) = a5 m c (ix1 q) := by
  show (W5 m ρ c (Proc.devRef .tc main_v47) : S1x16.Idx → EReal) (ix2 (0 : Fin 1) q) = _
  rw [W5_v47, W4_arg5]
  exact Idealize.ShloMosaic.MatrixReads.rowOfVec_apply 16 _ _ q

/-- THE FIRST RESULT is the reference's `relu (agg + b_gcn)`. -/
theorem kH_eq (c : Dev nD) :
    kH m ρ c = Cert.ReferenceIdeal.Read.val_main_v44 (F := Ideal) (a0 m c) (a1 m c) (a2 m c) (a3 m c) := by
  have hA : kH m ρ c = hArr (V5 m ρ) c := W6_arr m ρ c 4
  rw [hA]
  funext i
  obtain ⟨p, q, rfl⟩ : ∃ (p : Fin 100000) (q : Fin 64), i = ix2 p q := ⟨i 0, i 1, eq_ix2 i⟩
  rw [h_final (V5 m ρ) c p q, Cert.ReferenceIdeal.Hand.ref_h, bg_row m ρ c q]
  have eA : arrAgg (V5 m ρ) c = Cert.ReferenceIdeal.Read.val_main_v40 (F := Ideal) (a0 m c) (a1 m c) (a2 m c) := k45_eq m ρ c
  rw [eA]

/-- THE SECOND RESULT is the reference's `h @ W_out + b_out`. -/
theorem kZ_eq (c : Dev nD) :
    kZ m ρ c = Cert.ReferenceIdeal.Read.val_main_v48 (F := Ideal) (a0 m c) (a1 m c) (a2 m c) (a3 m c) (a4 m c) (a5 m c) := by
  have hA : kZ m ρ c = zArr (V5 m ρ) c := W6_arr m ρ c 5
  rw [hA]
  funext i
  obtain ⟨p, q, rfl⟩ : ∃ (p : Fin 100000) (q : Fin 16), i = ix2 p q := ⟨i 0, i 1, eq_ix2 i⟩
  rw [z_final (V5 m ρ) c p q, Cert.ReferenceIdeal.Hand.ref_z, bo_row m ρ c q]
  have eA : arrAgg (V5 m ρ) c = Cert.ReferenceIdeal.Read.val_main_v40 (F := Ideal) (a0 m c) (a1 m c) (a2 m c) := k45_eq m ρ c
  have eW : arrWo (V5 m ρ) c = a4 m c := W5_arg4 m ρ c
  rw [eA, eW]
  refine congrArg (fun s : EReal => FloatOps.addf (F := Ideal) (φ := .f32) s (a5 m c (ix1 q))) ?_
  refine Finset.sum_congr rfl fun k _ => ?_
  rw [Cert.ReferenceIdeal.Hand.ref_h, bg_row m ρ c k]

end Cert.KernelIdeal.Hand

end
-- ==== Proof.lean ====
/-
  A two-layer graph convolution, `h = relu (Â · (x · W_gcn) + b_gcn)`, `z = h · W_out + b_out`, over 100000 nodes and
  3200000 edges plus one self loop per node, against its plain reference.

  Both programs form the edge sources, the edge targets and the symmetric normalisation weights `norm` of the
  3300000 edges by the same host operations. The reference then gathers the rows of `xw = x · W_gcn` at the sources,
  scales row `r` by `norm r`, adds the rows into a table of zeros at the targets, adds the bias, takes `max · 0`
  and applies the output layer. The program computes `xw` in a first kernel, block of rows by block of rows; pads the
  three edge arrays by 1376 zeros to 403 blocks of 8192; gathers at the padded sources; scales the rows in a second
  kernel; adds them into a table of zeros at the padded targets; and computes bias, `max · 0` and the output layer in a
  third kernel. On the extended reals the two agree entry by entry:
    · a matrix product into zeros, in blocks of rows, is the whole product (one sum of products per entry);
    · each of the 1376 further rows is a row of `xw` times the weight `0`, which is `0` whatever the row holds, so it adds
      nothing to the row `0` of the table it lands on; the first 3300000 rows and their targets are the reference's;
    · the pointwise tail and the second product are the same operations.
  The idealization rewrote nothing, so the program's idealization is its own text read on the extended reals.
-/
import proofs.«123890_j30983894073976_1_alg».proof.Defs
import proofs.«123890_j30983894073976_1_alg».proof.Proof.Gen.Kernel
import proofs.«123890_j30983894073976_1_alg».proof.Proof.Gen.Kernel.Skeleton
import proofs.«123890_j30983894073976_1_alg».proof.Proof.Gen.Kernel.Launch
import proofs.«123890_j30983894073976_1_alg».proof.Proof.Gen.Kernel.Points
import proofs.«123890_j30983894073976_1_alg».proof.Proof.Gen.Kernel.Frame
import proofs.«123890_j30983894073976_1_alg».proof.Proof.Gen.KernelIdeal
import proofs.«123890_j30983894073976_1_alg».proof.Proof.Gen.KernelIdeal.Skeleton
import proofs.«123890_j30983894073976_1_alg».proof.Proof.Gen.KernelIdeal.Launch
import proofs.«123890_j30983894073976_1_alg».proof.Proof.Gen.KernelIdeal.Points
import proofs.«123890_j30983894073976_1_alg».proof.Proof.Gen.KernelIdeal.Frame
import proofs.«123890_j30983894073976_1_alg».proof.Proof.Gen.ReferenceIdeal
import proofs.«123890_j30983894073976_1_alg».proof.Proof.Gen.ReferenceIdeal.Run
import proofs.«123890_j30983894073976_1_alg».proof.Proof.Gen.ReferenceIdeal.Read
import proofs.«123890_j30983894073976_1_alg».proof.Proof.Gen.Pre_finite_inputs
import proofs.«123890_j30983894073976_1_alg».proof.Proof.RunResults
import proofs.«123890_j30983894073976_1_alg».proof.Proof.Bridge
import Idealize.ShloMosaic.Adequacy
import Idealize.ShloMosaic.Init

noncomputable section

namespace Cert.Proof

open Idealize.ShloMosaic Idealize.ShloMosaic.TcCoe Idealize.SL.Sem

/-- The program terminates without a fault and leaves its arguments as launched. -/
theorem frame_k : Cert.frame_Kernel := fun m ρ _ => Cert.Kernel.Gen.frame m ρ

/-- The same on the extended reals. -/
theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten. -/
theorem preserves : Cert.preserves_Kernel_KernelIdeal := trivial

/-- The program's run on the extended reals with its two results named: they are the reference's stages `relu (agg + b)` and
    `h · W_out + b_out` of the program's own arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v48_0)
          = Cert.ReferenceIdeal.Read.val_main_v44 (F := Ideal) (Cert.KernelIdeal.Hand.a0 m c) (Cert.KernelIdeal.Hand.a1 m c)
              (Cert.KernelIdeal.Hand.a2 m c) (Cert.KernelIdeal.Hand.a3 m c)
        ∧ r.2.mem ((c.tc : Thread Cert.KernelIdeal.nD Cert.KernelIdeal.τ).loc Cert.KernelIdeal.main_v48_1)
          = Cert.ReferenceIdeal.Read.val_main_v48 (F := Ideal) (Cert.KernelIdeal.Hand.a0 m c) (Cert.KernelIdeal.Hand.a1 m c)
              (Cert.KernelIdeal.Hand.a2 m c) (Cert.KernelIdeal.Hand.a3 m c) (Cert.KernelIdeal.Hand.a4 m c) (Cert.KernelIdeal.Hand.a5 m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run (Cert.KernelIdeal.defs (F := Ideal)) _ _).mono
    (fun r h c => ⟨(h c).1.trans (Cert.KernelIdeal.Hand.kH_eq m ρ c), (h c).2.1.trans (Cert.KernelIdeal.Hand.kZ_eq m ρ c), (h c).2.2⟩)
    (Cert.KernelIdeal.Gen.run_results (F := Ideal) m ρ)

/-- From memories agreeing on the arguments both programs end with the same two results: the program's are the
    reference's stages of its own arguments (`kernel_run`), the reference's run ends at the same stages of its arguments,
    and the arguments agree. -/
theorem algebraic : Cert.algebraic_KernelIdeal_ReferenceIdeal := by
  intro m ρ m' ρ' _ hagree
  refine ⟨_, _, kernel_run m ρ, ?_⟩
  refine (θ_run (Cert.ReferenceIdeal.defs (F := Ideal)) _ _).mono
    (fun r h c => ⟨(h c).1.trans ?_, (h c).2.1.trans ?_, (h c).2.2⟩)
    (Cert.ReferenceIdeal.Value.run (F := Ideal) m' ρ')
  · rw [Cert.ReferenceIdeal.Read.val_main_v44_eq, (hagree c).1, (hagree c).2.1, (hagree c).2.2.1, (hagree c).2.2.2.1]
  · rw [Cert.ReferenceIdeal.Read.val_main_v48_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
